-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S32768x16 : Shape := ⟨2, ![32768, 16]⟩
abbrev S19x64 : Shape := ⟨2, ![19, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S32768x16 : S_.BroadcastsInDim S32768x16 (![] : Fin 0 → Fin S32768x16.rank)
  reducesTo_S32768x16_S_d0_1 : S32768x16.ReducesTo [0, 1] S_
  bcast_S_S19x64 : S_.BroadcastsInDim S19x64 (![] : Fin 0 → Fin S19x64.rank)
  reducesTo_S19x64_S_d0_1 : S19x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S64x3 .f32) (main_arg8 : FVec F S3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x3 .f32) (main_arg8 : FVec F S3 .f32) (main_v13 : IVec S_ 1) (main_v16 : IVec S19x64 1) : IVec S_ 1 :=
  let main_c_5 : IVec S_ 1 := constantI S_ 1 1#1
  let main_v17 : IVec S_ 1 := (fun x v => Host.reduce IntOp.andi x v reducesTo_S19x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2097152x3 .f32) (main_arg1 : FVec F S2097152x3 .f32) (main_arg2 : FVec F S32768x16 .f32) (main_arg3 : FVec F S19x64 .f32) (main_arg4 : FVec F S64 .f32) (main_arg5 : FVec F S64x64 .f32) (main_arg6 : FVec F S64 .f32) (main_arg7 : FVec F S64x3 .f32) (main_arg8 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S32768x16 .f32 := Host.absf main_arg2
  let main_cst_2 : FVec F S_ .f32 := constant S_ .f32 0x7F800000#32
  let main_v10 : FVec F S32768x16 .f32 := broadcastInDim S32768x16 ![] bcast_S_S32768x16 main_cst_2
  let main_v11 : IVec S32768x16 1 := cmpf .olt main_v9 main_v10
  let main_c_3 : IVec S_ 1 := constantI S_ 1 1#1
  let main_v12 : IVec S_ 1 := (fun x v => Host.reduce IntOp.andi x v reducesTo_S32768x16_S_d0_1 h_S_) main_v11 main_c_3
  let main_v13 : IVec S_ 1 := andi main_v8 main_v12
  let main_v14 : FVec F S19x64 .f32 := Host.absf main_arg3
  let main_cst_4 : FVec F S_ .f32 := constant S_ .f32 0x7F800000#32
  let main_v15 : FVec F S19x64 .f32 := broadcastInDim S19x64 ![] bcast_S_S19x64 main_cst_4
  let main_v16 : IVec S19x64 1 := cmpf .olt main_v14 main_v15
  fn_part1 (F := F) main_arg4 main_arg5 main_arg6 main_arg7 main_arg8 main_v13 main_v16
-- ==== Kernel.lean ====
abbrev S2097152x3 : Shape := ⟨2, ![2097152, 3]⟩
abbrev S32768x16 : Shape := ⟨2, ![32768, 16]⟩
abbrev S19x64 : Shape := ⟨2, ![19, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S2097152x1 : Shape := ⟨2, ![2097152, 1]⟩
abbrev S2097152 : Shape := ⟨1, ![2097152]⟩
abbrev S1 : Shape := ⟨1, ![1]⟩
abbrev S1x1 : Shape := ⟨2, ![1, 1]⟩
abbrev S2097152x16 : Shape := ⟨2, ![2097152, 16]⟩
abbrev S2097152x19 : Shape := ⟨2, ![2097152, 19]⟩
abbrev S19x2097152 : Shape := ⟨2, ![19, 2097152]⟩
abbrev S64x19 : Shape := ⟨2, ![64, 19]⟩
abbrev S3x64 : Shape := ⟨2, ![3, 64]⟩
abbrev S64x1 : Shape := ⟨2, ![64, 1]⟩
abbrev S3x1 : Shape := ⟨2, ![3, 1]⟩
abbrev S3x2097152 : Shape := ⟨2, ![3, 2097152]⟩
abbrev S19x32768 : Shape := ⟨2, ![19, 32768]⟩
abbrev S3x32768 : Shape := ⟨2, ![3, 32768]⟩
abbrev S64x32768 : Shape := ⟨2, ![64, 32768]⟩

abbrev nBuf : Space → Nat
  | .hbm => 66
  | .vmem => 10
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S32768x16, .f32⟩
  | .hbm, ⟨3, _⟩ => ⟨S19x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S_, .f32⟩
  | .hbm, ⟨10, _⟩ => ⟨S2097152x3, .f32⟩
  | .hbm, ⟨11, _⟩ => ⟨S2097152x3, .f32⟩
  | .hbm, ⟨12, _⟩ => ⟨S2097152x3, .i32⟩
  | .hbm, ⟨13, _⟩ => ⟨S2097152x1, .i32⟩
  | .hbm, ⟨14, _⟩ => ⟨S2097152, .i32⟩
  | .hbm, ⟨15, _⟩ => ⟨S_, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152, .i32⟩
  | .hbm, ⟨20, _⟩ => ⟨S_, .i32⟩
  | .hbm, ⟨21, _⟩ => ⟨S2097152, .i32⟩
  | .hbm, ⟨22, _⟩ => ⟨S2097152, .i32⟩
  | .hbm, ⟨23, _⟩ => ⟨S2097152, .i32⟩
  | .hbm, ⟨24, _⟩ => ⟨S2097152x1, .i32⟩
  | .hbm, ⟨25, _⟩ => ⟨S2097152, .i32⟩
  | .hbm, ⟨26, _⟩ => ⟨S_, .i32⟩
  | .hbm, ⟨27, _⟩ => ⟨S2097152, .i32⟩
  | .hbm, ⟨28, _⟩ => ⟨S2097152, .i32⟩
  | .hbm, ⟨29, _⟩ => ⟨S2097152, .i32⟩
  | .hbm, ⟨30, _⟩ => ⟨S_, .i32⟩
  | .hbm, ⟨31, _⟩ => ⟨S2097152, .i32⟩
  | .hbm, ⟨32, _⟩ => ⟨S2097152, .i32⟩
  | .hbm, ⟨33, _⟩ => ⟨S_, .i32⟩
  | .hbm, ⟨34, _⟩ => ⟨S2097152, .i32⟩
  | .hbm, ⟨35, _⟩ => ⟨S2097152, .i1⟩
  | .hbm, ⟨36, _⟩ => ⟨S_, .i32⟩
  | .hbm, ⟨37, _⟩ => ⟨S2097152, .i32⟩
  | .hbm, ⟨38, _⟩ => ⟨S2097152, .i32⟩
  | .hbm, ⟨39, _⟩ => ⟨S2097152, .i32⟩
  | .hbm, ⟨40, _⟩ => ⟨S2097152x1, .i32⟩
  | .hbm, ⟨41, _⟩ => ⟨S1, .i32⟩
  | .hbm, ⟨42, _⟩ => ⟨S_, .i32⟩
  | .hbm, ⟨43, _⟩ => ⟨S2097152x1, .i32⟩
  | .hbm, ⟨44, _⟩ => ⟨S2097152x1, .i1⟩
  | .hbm, ⟨45, _⟩ => ⟨S1x1, .i32⟩
  | .hbm, ⟨46, _⟩ => ⟨S2097152x1, .i32⟩
  | .hbm, ⟨47, _⟩ => ⟨S2097152x1, .i1⟩
  | .hbm, ⟨48, _⟩ => ⟨S2097152x1, .i1⟩
  | .hbm, ⟨49, _⟩ => ⟨S_, .i1⟩
  | .hbm, ⟨50, _⟩ => ⟨S2097152, .i1⟩
  | .hbm, ⟨51, _⟩ => ⟨S2097152x16, .f32⟩
  | .hbm, ⟨52, _⟩ => ⟨S2097152x16, .i1⟩
  | .hbm, ⟨53, _⟩ => ⟨S_, .f32⟩
  | .hbm, ⟨54, _⟩ => ⟨S2097152x16, .f32⟩
  | .hbm, ⟨55, _⟩ => ⟨S2097152x16, .f32⟩
  | .hbm, ⟨56, _⟩ => ⟨S2097152x19, .f32⟩
  | .hbm, ⟨57, _⟩ => ⟨S19x2097152, .f32⟩
  | .hbm, ⟨58, _⟩ => ⟨S64x19, .f32⟩
  | .hbm, ⟨59, _⟩ => ⟨S64x64, .f32⟩
  | .hbm, ⟨60, _⟩ => ⟨S3x64, .f32⟩
  | .hbm, ⟨61, _⟩ => ⟨S64x1, .f32⟩
  | .hbm, ⟨62, _⟩ => ⟨S64x1, .f32⟩
  | .hbm, ⟨63, _⟩ => ⟨S3x1, .f32⟩
  | .hbm, ⟨64, _⟩ => ⟨S3x2097152, .f32⟩
  | .hbm, ⟨65, _⟩ => ⟨S2097152x3, .f32⟩
  | .local _ .vmem, ⟨0, _⟩ => ⟨S19x32768, .f32⟩
  | .local _ .vmem, ⟨1, _⟩ => ⟨S19x32768, .f32⟩
  | .local _ .vmem, ⟨2, _⟩ => ⟨S64x19, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S3x64, .f32⟩
  | .local _ .vmem, ⟨7, _⟩ => ⟨S3x1, .f32⟩
  | .local _ .vmem, ⟨8, _⟩ => ⟨S3x32768, .f32⟩
  | .local _ .vmem, ⟨9, _⟩ => ⟨S3x32768, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S19x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  bcast_S_S2097152 : S_.BroadcastsInDim S2097152 (![] : Fin 0 → Fin S2097152.rank)
  slices_S2097152x3_S2097152x1_0_1 : S2097152x3.Slices ![0, 1] S2097152x1
  slices_S2097152x3_S2097152x1_0_2 : S2097152x3.Slices ![0, 2] S2097152x1
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x16_0 : S2097152.BroadcastsInDim S2097152x16 (![0] : Fin 1 → Fin S2097152x16.rank)
  bcast_S_S2097152x16 : S_.BroadcastsInDim S2097152x16 (![] : Fin 0 → Fin S2097152x16.rank)
  concatenates_S2097152x16_S2097152x3_S2097152x19_d1 : Shape.Concatenates [S2097152x16, S2097152x3] S2097152x19 1
  transposes_S2097152x19_S19x2097152_1_0 : S2097152x19.Transposes [1, 0] S19x2097152
  transposes_S19x64_S64x19_1_0 : S19x64.Transposes [1, 0] S64x19
  transposes_S64x64_S64x64_1_0 : S64x64.Transposes [1, 0] S64x64
  transposes_S64x3_S3x64_1_0 : S64x3.Transposes [1, 0] S3x64
  shapeCasts_S64_S64x1 : S64.ShapeCasts S64x1
  shapeCasts_S3_S3x1 : S3.ShapeCasts S3x1
  inb_S19x32768_S19x32768_0_0 : ∀ a, (![0, 0] : Fin 2 → Nat) a + S19x32768.size a ≤ S19x32768.size a
  h_S19x32768 : 0 < S19x32768.numel
  shapeCasts_S19x32768_S19x32768 : S19x32768.ShapeCasts S19x32768
  inb_S64x19_S64x19_0_0 : ∀ a, (![0, 0] : Fin 2 → Nat) a + S64x19.size a ≤ S64x19.size a
  h_S64x19 : 0 < S64x19.numel
  shapeCasts_S64x19_S64x19 : S64x19.ShapeCasts S64x19
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  inb_S3x32768_S3x32768_0_0 : ∀ a, (![0, 0] : Fin 2 → Nat) a + S3x32768.size a ≤ S3x32768.size a
  h_S3x32768 : 0 < S3x32768.numel
  transposes_S3x2097152_S2097152x3_1_0 : S3x2097152.Transposes [1, 0] S2097152x3
  gather_S32768x16_S2097152x1_S2097152x16_1_0_n_n_0_1_116_wf : GatherDims.WF S32768x16 S2097152x1 S2097152x16 [1] [0] [] [0] [] 1 ![1, 16]
  dot_S64x19_S19x32768_S64x32768_1_0_0_1_n_n_wf : DotDims.WF S64x19 S19x32768 S64x32768 [1] [0] [0] [1] [] []
  dot_S64x64_S64x32768_S64x32768_1_0_0_1_n_n_wf : DotDims.WF S64x64 S64x32768 S64x32768 [1] [0] [0] [1] [] []
  dot_S3x64_S64x32768_S3x32768_1_0_0_1_n_n_wf : DotDims.WF S3x64 S64x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S19x32768.size a ≤ S19x2097152.size a
  hwx0_0 : ∀ i : grid0.Coords, EltTy.bits .f32 = 32 ∨ (Rect.block (s := S19x2097152) S19x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x19.size a ≤ S64x19.size a
  hwx0_1 : ∀ i : grid0.Coords, EltTy.bits .f32 = 32 ∨ (Rect.block (s := S64x19) S64x19.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x32768.size a ≤ S3x2097152.size a
  hwx0_7 : ∀ i : grid0.Coords, EltTy.bits .f32 = 32 ∨ (Rect.block (s := S3x2097152) S3x32768.size (cc0_transform_7 i) (hinb0_7 i)).WholeWords (EltTy.packing .f32)

variable [Facts₀]

def gather_S32768x16_S2097152x1_S2097152x16_1_0_n_n_0_1_116 : GatherDims S32768x16 S2097152x1 S2097152x16 where
  offsetDims := [1]
  collapsedSliceDims := [0]
  operandBatchingDims := []
  startIndicesBatchingDims := []
  startIndexMap := [0]
  indexVectorDim := 1
  sliceSizes := ![1, 16]
  wf := gather_S32768x16_S2097152x1_S2097152x16_1_0_n_n_0_1_116_wf
def dot_S64x19_S19x32768_S64x32768_1_0_0_1_n_n : DotDims S64x19 S19x32768 S64x32768 where
  lhsContracting := [1]
  rhsContracting := [0]
  lhsNonContracting := [0]
  rhsNonContracting := [1]
  lhsBatch := []
  rhsBatch := []
  wf := dot_S64x19_S19x32768_S64x32768_1_0_0_1_n_n_wf
def dot_S64x64_S64x32768_S64x32768_1_0_0_1_n_n : DotDims S64x64 S64x32768 S64x32768 where
  lhsContracting := [1]
  rhsContracting := [0]
  lhsNonContracting := [0]
  rhsNonContracting := [1]
  lhsBatch := []
  rhsBatch := []
  wf := dot_S64x64_S64x32768_S64x32768_1_0_0_1_n_n_wf
def dot_S3x64_S64x32768_S3x32768_1_0_0_1_n_n : DotDims S3x64 S64x32768 S3x32768 where
  lhsContracting := [1]
  rhsContracting := [0]
  lhsNonContracting := [0]
  rhsNonContracting := [1]
  lhsBatch := []
  rhsBatch := []
  wf := dot_S3x64_S64x32768_S3x32768_1_0_0_1_n_n_wf

abbrev win0_0 : Pipeline.Window sig grid0 :=
  Pipeline.Window.ofSpec (Memref.whole main_v21) S19x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S64x19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S3x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S32768x16 : Shape := ⟨2, ![32768, 16]⟩
abbrev S19x64 : Shape := ⟨2, ![19, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S2097152x1 : Shape := ⟨2, ![2097152, 1]⟩
abbrev S2097152 : Shape := ⟨1, ![2097152]⟩
abbrev S2097152x16 : Shape := ⟨2, ![2097152, 16]⟩
abbrev S2097152x19 : Shape := ⟨2, ![2097152, 19]⟩
abbrev S2097152x64 : Shape := ⟨2, ![2097152, 64]⟩
abbrev S1x64 : Shape := ⟨2, ![1, 64]⟩
abbrev S1x3 : Shape := ⟨2, ![1, 3]⟩

abbrev nBuf : Space → Nat
  | .hbm => 69
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S32768x16, .f32⟩
  | .hbm, ⟨3, _⟩ => ⟨S19x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S_, .f32⟩
  | .hbm, ⟨10, _⟩ => ⟨S2097152x3, .f32⟩
  | .hbm, ⟨11, _⟩ => ⟨S2097152x3, .f32⟩
  | .hbm, ⟨12, _⟩ => ⟨S2097152x3, .i32⟩
  | .hbm, ⟨13, _⟩ => ⟨S2097152x1, .i32⟩
  | .hbm, ⟨14, _⟩ => ⟨S2097152, .i32⟩
  | .hbm, ⟨15, _⟩ => ⟨S_, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152, .i32⟩
  | .hbm, ⟨20, _⟩ => ⟨S_, .i32⟩
  | .hbm, ⟨21, _⟩ => ⟨S2097152, .i32⟩
  | .hbm, ⟨22, _⟩ => ⟨S2097152, .i32⟩
  | .hbm, ⟨23, _⟩ => ⟨S2097152, .i32⟩
  | .hbm, ⟨24, _⟩ => ⟨S2097152x1, .i32⟩
  | .hbm, ⟨25, _⟩ => ⟨S2097152, .i32⟩
  | .hbm, ⟨26, _⟩ => ⟨S_, .i32⟩
  | .hbm, ⟨27, _⟩ => ⟨S2097152, .i32⟩
  | .hbm, ⟨28, _⟩ => ⟨S2097152, .i32⟩
  | .hbm, ⟨29, _⟩ => ⟨S2097152, .i32⟩
  | .hbm, ⟨30, _⟩ => ⟨S_, .i32⟩
  | .hbm, ⟨31, _⟩ => ⟨S2097152, .i32⟩
  | .hbm, ⟨32, _⟩ => ⟨S2097152, .i32⟩
  | .hbm, ⟨33, _⟩ => ⟨S_, .i32⟩
  | .hbm, ⟨34, _⟩ => ⟨S2097152, .i32⟩
  | .hbm, ⟨35, _⟩ => ⟨S2097152, .i1⟩
  | .hbm, ⟨36, _⟩ => ⟨S_, .i32⟩
  | .hbm, ⟨37, _⟩ => ⟨S2097152, .i32⟩
  | .hbm, ⟨38, _⟩ => ⟨S2097152, .i32⟩
  | .hbm, ⟨39, _⟩ => ⟨S2097152, .i32⟩
  | .hbm, ⟨40, _⟩ => ⟨S2097152x1, .i32⟩
  | .hbm, ⟨41, _⟩ => ⟨S2097152x16, .f32⟩
  | .hbm, ⟨42, _⟩ => ⟨S2097152x19, .f32⟩
  | .hbm, ⟨43, _⟩ => ⟨S2097152x64, .f32⟩
  | .hbm, ⟨44, _⟩ => ⟨S1x64, .f32⟩
  | .hbm, ⟨45, _⟩ => ⟨S2097152x64, .f32⟩
  | .hbm, ⟨46, _⟩ => ⟨S2097152x64, .f32⟩
  | .hbm, ⟨47, _⟩ => ⟨S_, .f32⟩
  | .hbm, ⟨48, _⟩ => ⟨S2097152x64, .f32⟩
  | .hbm, ⟨49, _⟩ => ⟨S2097152x64, .f32⟩
  | .hbm, ⟨50, _⟩ => ⟨S2097152x64, .f32⟩
  | .hbm, ⟨51, _⟩ => ⟨S1x64, .f32⟩
  | .hbm, ⟨52, _⟩ => ⟨S2097152x64, .f32⟩
  | .hbm, ⟨53, _⟩ => ⟨S2097152x64, .f32⟩
  | .hbm, ⟨54, _⟩ => ⟨S_, .f32⟩
  | .hbm, ⟨55, _⟩ => ⟨S2097152x64, .f32⟩
  | .hbm, ⟨56, _⟩ => ⟨S2097152x64, .f32⟩
  | .hbm, ⟨57, _⟩ => ⟨S2097152x3, .f32⟩
  | .hbm, ⟨58, _⟩ => ⟨S1x3, .f32⟩
  | .hbm, ⟨59, _⟩ => ⟨S2097152x3, .f32⟩
  | .hbm, ⟨60, _⟩ => ⟨S2097152x3, .f32⟩
  | .hbm, ⟨61, _⟩ => ⟨S2097152x3, .f32⟩
  | .hbm, ⟨62, _⟩ => ⟨S2097152x3, .f32⟩
  | .hbm, ⟨63, _⟩ => ⟨S_, .f32⟩
  | .hbm, ⟨64, _⟩ => ⟨S2097152x3, .f32⟩
  | .hbm, ⟨65, _⟩ => ⟨S2097152x3, .f32⟩
  | .hbm, ⟨66, _⟩ => ⟨S_, .f32⟩
  | .hbm, ⟨67, _⟩ => ⟨S2097152x3, .f32⟩
  | .hbm, ⟨68, _⟩ => ⟨S2097152x3, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  bcast_S_S2097152 : S_.BroadcastsInDim S2097152 (![] : Fin 0 → Fin S2097152.rank)
  slices_S2097152x3_S2097152x1_0_1 : S2097152x3.Slices ![0, 1] S2097152x1
  slices_S2097152x3_S2097152x1_0_2 : S2097152x3.Slices ![0, 2] S2097152x1
  bcast_S2097152_S2097152x1_0 : S2097152.BroadcastsInDim S2097152x1 (![0] : Fin 1 → Fin S2097152x1.rank)
  concatenates_S2097152x16_S2097152x3_S2097152x19_d1 : Shape.Concatenates [S2097152x16, S2097152x3] S2097152x19 1
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  gather_S32768x16_S2097152x1_S2097152x16_1_0_n_n_0_1_116_wf : GatherDims.WF S32768x16 S2097152x1 S2097152x16 [1] [0] [] [0] [] 1 ![1, 16]
  dot_S2097152x19_S19x64_S2097152x64_1_0_0_1_n_n_wf : DotDims.WF S2097152x19 S19x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def gather_S32768x16_S2097152x1_S2097152x16_1_0_n_n_0_1_116 : GatherDims S32768x16 S2097152x1 S2097152x16 where
  offsetDims := [1]
  collapsedSliceDims := [0]
  operandBatchingDims := []
  startIndicesBatchingDims := []
  startIndexMap := [0]
  indexVectorDim := 1
  sliceSizes := ![1, 16]
  wf := gather_S32768x16_S2097152x1_S2097152x16_1_0_n_n_0_1_116_wf
def dot_S2097152x19_S19x64_S2097152x64_1_0_0_1_n_n : DotDims S2097152x19 S19x64 S2097152x64 where
  lhsContracting := [1]
  rhsContracting := [0]
  lhsNonContracting := [0]
  rhsNonContracting := [1]
  lhsBatch := []
  rhsBatch := []
  wf := dot_S2097152x19_S19x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.MlpSpec.lean ====
/-
  The function both programs compute, written once over coordinates.

  A point's feature vector `x : Fin K → EReal` goes through two dense layers with a rectifier and a third dense
  layer with a logistic:   hidden W b x h = max (Σ k, W k h · x k + b h) 0,
  out x j = logistic (Σ k, W3 k j · hidden W2 b2 (hidden W1 b1 x) k + b3 j).
  Everything is on the extended reals; the only algebra either side of the certificate needs beyond this file is
  commutativity of the product inside the sums, which holds there without any finiteness.
-/
import Idealize.ShloMosaic.PureOps.Ideal
import Idealize.ShloMosaic.Lib.ValueIdx

noncomputable section

open scoped BigOperators

namespace Cert.Mlp

open Idealize.ShloMosaic Idealize.ShloMosaic.ValueIdx

/-- The rectifier's threshold: the word of `+0.0`, kept as the word (both programs splat the same one). -/
abbrev zero : EReal := Ideal.ofBits .f32 0x00000000#32

/-- One dense layer followed by the rectifier, at output channel `h`: weights `W k h`, bias `b h`. -/
def hidden {K H : Nat} (W : Fin K → Fin H → EReal) (b : Fin H → EReal) (x : Fin K → EReal) (h : Fin H) : EReal :=
  max (∑ k : Fin K, W k h * x k + b h) zero

/-- The three-layer network at output channel `j`. -/
def out {K H1 H2 O : Nat} (W1 : Fin K → Fin H1 → EReal) (b1 : Fin H1 → EReal) (W2 : Fin H1 → Fin H2 → EReal) (b2 : Fin H2 → EReal)
    (W3 : Fin H2 → Fin O → EReal) (b3 : Fin O → EReal) (x : Fin K → EReal) (j : Fin O) : EReal :=
  Ideal.logistic (∑ k : Fin H2, W3 k j * hidden W2 b2 (hidden W1 b1 x) k + b3 j)

/-- The network applied row by row to a point-major feature array `X : [N, 19]` with weights stored input-major
    (`W1 : [19, 64]`, `W2 : [64, 64]`, `W3 : [64, 3]`) and flat biases: the result array `[N, 3]`. -/
def rows {N : Nat} (X : (⟨2, ![N, 19]⟩ : Shape).Idx → EReal)
    (W1 : (⟨2, ![19, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 3]⟩ : Shape).Idx → EReal) (b3 : (⟨1, ![3]⟩ : Shape).Idx → EReal) :
    (⟨2, ![N, 3]⟩ : Shape).Idx → EReal :=
  fun i => out (fun k h => W1 (ix2 k h)) (fun h => b1 (ix1 h)) (fun k h => W2 (ix2 k h)) (fun h => b2 (ix1 h))
    (fun k j => W3 (ix2 k j)) (fun j => b3 (ix1 j)) (fun k => X (ix2 (i 0) k)) (i 1)

/-- The same network on the channel-major layout the kernel streams: features `xT : [19, N]`, weights stored
    output-major (`[64, 19]`, `[64, 64]`, `[3, 64]`), biases as columns (`[64, 1]`, `[3, 1]`), result `[3, N]`. -/
def cols {N : Nat} (xT : (⟨2, ![19, N]⟩ : Shape).Idx → EReal)
    (w1 : (⟨2, ![64, 19]⟩ : Shape).Idx → EReal) (c1 : (⟨2, ![64, 1]⟩ : Shape).Idx → EReal)
    (w2 : (⟨2, ![64, 64]⟩ : Shape).Idx → EReal) (c2 : (⟨2, ![64, 1]⟩ : Shape).Idx → EReal)
    (w3 : (⟨2, ![3, 64]⟩ : Shape).Idx → EReal) (c3 : (⟨2, ![3, 1]⟩ : Shape).Idx → EReal) :
    (⟨2, ![3, N]⟩ : Shape).Idx → EReal :=
  fun i => out (fun k h => w1 (ix2 h k)) (fun h => c1 (ix2 h 0)) (fun k h => w2 (ix2 h k)) (fun h => c2 (ix2 h 0))
    (fun k j => w3 (ix2 j k)) (fun j => c3 (ix2 j 0)) (fun k => xT (ix2 k (i 1))) (i 0)

/-- Reading `rows` at coordinates. -/
theorem rows_apply {N : Nat} (X : (⟨2, ![N, 19]⟩ : Shape).Idx → EReal)
    (W1 : (⟨2, ![19, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 3]⟩ : Shape).Idx → EReal) (b3 : (⟨1, ![3]⟩ : Shape).Idx → EReal) (n : Fin N) (j : Fin 3) :
    rows X W1 b1 W2 b2 W3 b3 (ix2 n j) = out (fun k h => W1 (ix2 k h)) (fun h => b1 (ix1 h)) (fun k h => W2 (ix2 k h)) (fun h => b2 (ix1 h))
      (fun k j => W3 (ix2 k j)) (fun j => b3 (ix1 j)) (fun k => X (ix2 n k)) j := rfl

/-- Reading `cols` at coordinates. -/
theorem cols_apply {N : Nat} (xT : (⟨2, ![19, N]⟩ : Shape).Idx → EReal)
    (w1 : (⟨2, ![64, 19]⟩ : Shape).Idx → EReal) (c1 : (⟨2, ![64, 1]⟩ : Shape).Idx → EReal)
    (w2 : (⟨2, ![64, 64]⟩ : Shape).Idx → EReal) (c2 : (⟨2, ![64, 1]⟩ : Shape).Idx → EReal)
    (w3 : (⟨2, ![3, 64]⟩ : Shape).Idx → EReal) (c3 : (⟨2, ![3, 1]⟩ : Shape).Idx → EReal) (j : Fin 3) (n : Fin N) :
    cols xT w1 c1 w2 c2 w3 c3 (ix2 j n) = out (fun k h => w1 (ix2 h k)) (fun h => c1 (ix2 h 0)) (fun k h => w2 (ix2 h k)) (fun h => c2 (ix2 h 0))
      (fun k j => w3 (ix2 j k)) (fun j => c3 (ix2 j 0)) (fun k => xT (ix2 k n)) j := rfl

/-- The channel-major network on transposed features, transposed weights and column biases is the row-major
    network, read at the transposed index: the two layouts name the same sums. -/
theorem cols_eq_rows {N : Nat} (X : (⟨2, ![N, 19]⟩ : Shape).Idx → EReal)
    (W1 : (⟨2, ![19, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 3]⟩ : Shape).Idx → EReal) (b3 : (⟨1, ![3]⟩ : Shape).Idx → EReal)
    (xT : (⟨2, ![19, N]⟩ : Shape).Idx → EReal)
    (w1 : (⟨2, ![64, 19]⟩ : Shape).Idx → EReal) (c1 : (⟨2, ![64, 1]⟩ : Shape).Idx → EReal)
    (w2 : (⟨2, ![64, 64]⟩ : Shape).Idx → EReal) (c2 : (⟨2, ![64, 1]⟩ : Shape).Idx → EReal)
    (w3 : (⟨2, ![3, 64]⟩ : Shape).Idx → EReal) (c3 : (⟨2, ![3, 1]⟩ : Shape).Idx → EReal)
    (hx : ∀ (k : Fin 19) (n : Fin N), xT (ix2 k n) = X (ix2 n k))
    (h1 : ∀ (h : Fin 64) (k : Fin 19), w1 (ix2 h k) = W1 (ix2 k h)) (hc1 : ∀ h : Fin 64, c1 (ix2 h 0) = b1 (ix1 h))
    (h2 : ∀ (h : Fin 64) (k : Fin 64), w2 (ix2 h k) = W2 (ix2 k h)) (hc2 : ∀ h : Fin 64, c2 (ix2 h 0) = b2 (ix1 h))
    (h3 : ∀ (j : Fin 3) (k : Fin 64), w3 (ix2 j k) = W3 (ix2 k j)) (hc3 : ∀ j : Fin 3, c3 (ix2 j 0) = b3 (ix1 j))
    (n : Fin N) (j : Fin 3) :
    cols xT w1 c1 w2 c2 w3 c3 (ix2 j n) = rows X W1 b1 W2 b2 W3 b3 (ix2 n j) := by
  rw [cols_apply, rows_apply]
  simp only [hx, h1, hc1, h2, hc2, h3, hc3]

end Cert.Mlp

end
-- ==== Proof.RefValue.lean ====
/-
  The reference program's result is the row-major network.

  Read one operation at a time, entry `(n, j)` of the reference's result is
  `1 / (1 + exp (-(Σ k, h2 n k · W3 k j + b3 j)))` with `h2 n h = max (Σ k, h1 n k · W2 k h + b2 h) 0` and
  `h1 n h = max (Σ k, X n k · W1 k h + b1 h) 0`, where `X` is the feature array (gathered rows joined with the
  normals).  On the extended reals `1 / (1 + exp (-z))` is the logistic by definition, the word `0x3F800000` is the
  number one, and the factors of each product commute: this is `Mlp.rows` of `X` and the weights and biases.
-/
import proofs.«406248_j8211977470216_3_alg».proof.Proof.RefRead
import proofs.«406248_j8211977470216_3_alg».proof.Proof.MlpSpec

noncomputable section

open scoped BigOperators

namespace Cert.ReferenceIdeal.RefValue

open Cert.ReferenceIdeal Cert.ReferenceIdeal.Gen Cert.ReferenceIdeal.ReadP Idealize.ShloMosaic Idealize.ShloMosaic.ValueIdx

/-- The word of `1.0` denotes the number one. -/
theorem one_word : Ideal.ofBits .f32 0x3F800000#32 = (1 : EReal) := by
  simp [Ideal.ofBits, Ideal.ieee, -EReal.coe_mul]; norm_num

variable (x0 x1 : (⟨S2097152x3, .f32⟩ : BufTy).Contents (Elt Ideal)) (x2 : (⟨S32768x16, .f32⟩ : BufTy).Contents (Elt Ideal))
  (x3 : (⟨S19x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x3, .f32⟩ : BufTy).Contents (Elt Ideal)) (x8 : (⟨S3, .f32⟩ : BufTy).Contents (Elt Ideal))

/-- The first layer's rectified output at point `n`, channel `h`. -/
theorem layer1 (n : Fin 2097152) (h : Fin 64) :
    val_main_v31 (F := Ideal) x0 x1 x2 x3 x4 (ix2 n h)
      = Mlp.hidden (fun k h => x3 (ix2 k h)) (fun h => x4 (ix1 h)) (fun k => val_main_v26 (F := Ideal) x0 x1 x2 (ix2 n k)) h := by
  have hl : ∀ k : Fin 19, lidx_main_v27 (ix2 n h) k = ix2 n k := fun k => funext fun a => by
    match a with
    | ⟨0, _⟩ => rfl
    | ⟨1, _⟩ => rfl
  have hr : ∀ k : Fin 19, ridx_main_v27 (ix2 n h) k = ix2 k h := fun k => funext fun a => by
    match a with
    | ⟨0, _⟩ => rfl
    | ⟨1, _⟩ => rfl
  have hb : idx_main_v28 (idx_main_v29 (ix2 n h)) = ix1 h := funext fun a => by
    match a with
    | ⟨0, _⟩ => rfl
  rw [val_main_v31_apply, val_main_v30_apply, val_main_v27_apply, val_main_v29_apply, val_main_v28_apply,
    val_main_call0_v0_apply, val_main_call0_cst_apply]
  simp only [hl, hr, hb]
  show max (∑ k : Fin 19, val_main_v26 (F := Ideal) x0 x1 x2 (ix2 n k) * x3 (ix2 k h) + x4 (ix1 h)) Mlp.zero = _
  unfold Mlp.hidden
  rw [Finset.sum_congr rfl fun k _ => mul_comm (val_main_v26 (F := Ideal) x0 x1 x2 (ix2 n k)) (x3 (ix2 k h))]

/-- The second layer's rectified output at point `n`, channel `h`. -/
theorem layer2 (n : Fin 2097152) (h : Fin 64) :
    val_main_v36 (F := Ideal) x0 x1 x2 x3 x4 x5 x6 (ix2 n h)
      = Mlp.hidden (fun k h => x5 (ix2 k h)) (fun h => x6 (ix1 h)) (fun k => val_main_v31 (F := Ideal) x0 x1 x2 x3 x4 (ix2 n k)) h := by
  have hl : ∀ k : Fin 64, lidx_main_v32 (ix2 n h) k = ix2 n k := fun k => funext fun a => by
    match a with
    | ⟨0, _⟩ => rfl
    | ⟨1, _⟩ => rfl
  have hr : ∀ k : Fin 64, ridx_main_v32 (ix2 n h) k = ix2 k h := fun k => funext fun a => by
    match a with
    | ⟨0, _⟩ => rfl
    | ⟨1, _⟩ => rfl
  have hb : idx_main_v33 (idx_main_v34 (ix2 n h)) = ix1 h := funext fun a => by
    match a with
    | ⟨0, _⟩ => rfl
  rw [val_main_v36_apply, val_main_v35_apply, val_main_v32_apply, val_main_v34_apply, val_main_v33_apply,
    val_main_call1_v0_apply, val_main_call1_cst_apply]
  simp only [hl, hr, hb]
  show max (∑ k : Fin 64, val_main_v31 (F := Ideal) x0 x1 x2 x3 x4 (ix2 n k) * x5 (ix2 k h) + x6 (ix1 h)) Mlp.zero = _
  unfold Mlp.hidden
  rw [Finset.sum_congr rfl fun k _ => mul_comm (val_main_v31 (F := Ideal) x0 x1 x2 x3 x4 (ix2 n k)) (x5 (ix2 k h))]

/-- The result at point `n`, channel `j`: the logistic of the third layer. -/
theorem layer3 (n : Fin 2097152) (j : Fin 3) :
    val_main_v46 (F := Ideal) x0 x1 x2 x3 x4 x5 x6 x7 x8 (ix2 n j)
      = Ideal.logistic (∑ k : Fin 64, x7 (ix2 k j) * val_main_v36 (F := Ideal) x0 x1 x2 x3 x4 x5 x6 (ix2 n k) + x8 (ix1 j)) := by
  have hl : ∀ k : Fin 64, lidx_main_v37 (ix2 n j) k = ix2 n k := fun k => funext fun a => by
    match a with
    | ⟨0, _⟩ => rfl
    | ⟨1, _⟩ => rfl
  have hr : ∀ k : Fin 64, ridx_main_v37 (ix2 n j) k = ix2 k j := fun k => funext fun a => by
    match a with
    | ⟨0, _⟩ => rfl
    | ⟨1, _⟩ => rfl
  have hb : idx_main_v38 (idx_main_v39 (ix2 n j)) = ix1 j := funext fun a => by
    match a with
    | ⟨0, _⟩ => rfl
  rw [val_main_v46_apply, val_main_v45_apply, val_main_cst_6_apply, val_main_v44_apply, val_main_v43_apply, val_main_cst_5_apply,
    val_main_v42_apply, val_main_v41_apply, val_main_v40_apply, val_main_v37_apply, val_main_v39_apply, val_main_v38_apply]
  simp only [hl, hr, hb]
  show Ideal.div (Ideal.ofBits .f32 0x3F800000#32) (Ideal.ofBits .f32 0x3F800000#32
      + Ideal.exp (-(∑ k : Fin 64, val_main_v36 (F := Ideal) x0 x1 x2 x3 x4 x5 x6 (ix2 n k) * x7 (ix2 k j) + x8 (ix1 j)))) = _
  rw [one_word, Finset.sum_congr rfl fun k _ => mul_comm (val_main_v36 (F := Ideal) x0 x1 x2 x3 x4 x5 x6 (ix2 n k)) (x7 (ix2 k j))]
  rfl

/-- THE REFERENCE'S RESULT is the row-major network of its feature array. -/
theorem result_eq :
    val_main_v46 (F := Ideal) x0 x1 x2 x3 x4 x5 x6 x7 x8
      = Mlp.rows (val_main_v26 (F := Ideal) x0 x1 x2) x3 x4 x5 x6 x7 x8 := by
  refine funext fun (i : S2097152x3.Idx) => ?_
  obtain ⟨n, j, rfl⟩ : ∃ (n : Fin 2097152) (j : Fin 3), i = ix2 n j := ⟨i 0, i 1, eq_ix2 i⟩
  rw [layer3, Mlp.rows_apply]
  unfold Mlp.out
  simp only [layer2, layer1]

end Cert.ReferenceIdeal.RefValue

end
-- ==== Proof.KernelBody.lean ====
/-
  The kernel body's arithmetic, read at one entry of the output block.

  The body holds a channel-major block `x : [19, 32768]` of features, the three weight matrices stored output-major
  and the three biases as columns.  Each `tpu.matmul` into a zero accumulator is, entry by entry, a finite sum of
  products over the contracted axis; a column bias broadcast along the lanes reads its row; the rectifier and the
  logistic act entry by entry.  So entry `(j, q)` of what the body stores is the three-layer network `Mlp.out` of
  column `q` of the feature block.
-/
import proofs.«406248_j8211977470216_3_alg».proof.KernelIdeal
import proofs.«406248_j8211977470216_3_alg».proof.Proof.Gen.KernelIdeal.Skeleton
import proofs.«406248_j8211977470216_3_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ### The product `mm1`: [64, 19] × [19, 32768] -/

theorem lhs_mm1_0 (i : S64x32768.Idx) (q : dot_S64x19_S19x32768_S64x32768_1_0_0_1_n_n.contr.Idx) :
    (dot_S64x19_S19x32768_S64x32768_1_0_0_1_n_n.lhsIdx i q 0).val = (i 0).val := by
  unfold DotDims.lhsIdx
  rw [dif_neg (show ¬(0 : Fin S64x19.rank) ∈ dot_S64x19_S19x32768_S64x32768_1_0_0_1_n_n.lhsBatch by decide), dif_pos (show (0 : Fin S64x19.rank) ∈ dot_S64x19_S19x32768_S64x32768_1_0_0_1_n_n.lhsNonContracting by decide)]
  rfl
theorem lhs_mm1_1 (i : S64x32768.Idx) (q : dot_S64x19_S19x32768_S64x32768_1_0_0_1_n_n.contr.Idx) :
    (dot_S64x19_S19x32768_S64x32768_1_0_0_1_n_n.lhsIdx i q 1).val = (q ⟨0, by decide⟩).val :=
  dot_S64x19_S19x32768_S64x32768_1_0_0_1_n_n.lhsIdx_val_of_single rfl i q
theorem rhs_mm1_0 (i : S64x32768.Idx) (q : dot_S64x19_S19x32768_S64x32768_1_0_0_1_n_n.contr.Idx) :
    (dot_S64x19_S19x32768_S64x32768_1_0_0_1_n_n.rhsIdx i q 0).val = (q ⟨0, by decide⟩).val :=
  dot_S64x19_S19x32768_S64x32768_1_0_0_1_n_n.rhsIdx_val_of_single rfl i q
theorem rhs_mm1_1 (i : S64x32768.Idx) (q : dot_S64x19_S19x32768_S64x32768_1_0_0_1_n_n.contr.Idx) :
    (dot_S64x19_S19x32768_S64x32768_1_0_0_1_n_n.rhsIdx i q 1).val = (i 1).val := by
  unfold DotDims.rhsIdx
  rw [dif_neg (show ¬(1 : Fin S19x32768.rank) ∈ dot_S64x19_S19x32768_S64x32768_1_0_0_1_n_n.rhsBatch by decide), dif_pos (show (1 : Fin S19x32768.rank) ∈ dot_S64x19_S19x32768_S64x32768_1_0_0_1_n_n.rhsNonContracting by decide)]
  rfl

/-- Entry `(a, b)` of the product into a zero accumulator is the row of the left factor against the column of the
    right one. -/
theorem mm1_apply (l : FVec Ideal S64x19 .f32) (r : FVec Ideal S19x32768 .f32) (a : Fin 64) (b : Fin 32768) :
    matmul dot_S64x19_S19x32768_S64x32768_1_0_0_1_n_n none l r (constant S64x32768 .f32 0x00000000#32) (ix2 a b)
      = ∑ k : Fin 19, l (ix2 a k) * r (ix2 k b) := by
  show FloatOps.matmul dot_S64x19_S19x32768_S64x32768_1_0_0_1_n_n none l r (constant S64x32768 .f32 0x00000000#32) (ix2 a b) = _
  rw [Ideal.matmul_constant_zero_apply, ← Equiv.sum_comp (contrEquiv1 dot_S64x19_S19x32768_S64x32768_1_0_0_1_n_n 19 rfl rfl).symm]
  refine Finset.sum_congr rfl fun k _ => ?_
  have hk := contrEquiv1_symm_val dot_S64x19_S19x32768_S64x32768_1_0_0_1_n_n 19 rfl rfl k
  have el : dot_S64x19_S19x32768_S64x32768_1_0_0_1_n_n.lhsIdx (ix2 a b) ((contrEquiv1 dot_S64x19_S19x32768_S64x32768_1_0_0_1_n_n 19 rfl rfl).symm k) = ix2 a k := funext fun x => Fin.ext (by
    match x with
    | ⟨0, _⟩ => exact lhs_mm1_0 _ _
    | ⟨1, _⟩ => exact (lhs_mm1_1 _ _).trans hk)
  have er : dot_S64x19_S19x32768_S64x32768_1_0_0_1_n_n.rhsIdx (ix2 a b) ((contrEquiv1 dot_S64x19_S19x32768_S64x32768_1_0_0_1_n_n 19 rfl rfl).symm k) = ix2 k b := funext fun x => Fin.ext (by
    match x with
    | ⟨0, _⟩ => exact (rhs_mm1_0 _ _).trans hk
    | ⟨1, _⟩ => exact rhs_mm1_1 _ _)
  rw [el, er]

/-! ### The product `mm2`: [64, 64] × [64, 32768] -/

theorem lhs_mm2_0 (i : S64x32768.Idx) (q : dot_S64x64_S64x32768_S64x32768_1_0_0_1_n_n.contr.Idx) :
    (dot_S64x64_S64x32768_S64x32768_1_0_0_1_n_n.lhsIdx i q 0).val = (i 0).val := by
  unfold DotDims.lhsIdx
  rw [dif_neg (show ¬(0 : Fin S64x64.rank) ∈ dot_S64x64_S64x32768_S64x32768_1_0_0_1_n_n.lhsBatch by decide), dif_pos (show (0 : Fin S64x64.rank) ∈ dot_S64x64_S64x32768_S64x32768_1_0_0_1_n_n.lhsNonContracting by decide)]
  rfl
theorem lhs_mm2_1 (i : S64x32768.Idx) (q : dot_S64x64_S64x32768_S64x32768_1_0_0_1_n_n.contr.Idx) :
    (dot_S64x64_S64x32768_S64x32768_1_0_0_1_n_n.lhsIdx i q 1).val = (q ⟨0, by decide⟩).val :=
  dot_S64x64_S64x32768_S64x32768_1_0_0_1_n_n.lhsIdx_val_of_single rfl i q
theorem rhs_mm2_0 (i : S64x32768.Idx) (q : dot_S64x64_S64x32768_S64x32768_1_0_0_1_n_n.contr.Idx) :
    (dot_S64x64_S64x32768_S64x32768_1_0_0_1_n_n.rhsIdx i q 0).val = (q ⟨0, by decide⟩).val :=
  dot_S64x64_S64x32768_S64x32768_1_0_0_1_n_n.rhsIdx_val_of_single rfl i q
theorem rhs_mm2_1 (i : S64x32768.Idx) (q : dot_S64x64_S64x32768_S64x32768_1_0_0_1_n_n.contr.Idx) :
    (dot_S64x64_S64x32768_S64x32768_1_0_0_1_n_n.rhsIdx i q 1).val = (i 1).val := by
  unfold DotDims.rhsIdx
  rw [dif_neg (show ¬(1 : Fin S64x32768.rank) ∈ dot_S64x64_S64x32768_S64x32768_1_0_0_1_n_n.rhsBatch by decide), dif_pos (show (1 : Fin S64x32768.rank) ∈ dot_S64x64_S64x32768_S64x32768_1_0_0_1_n_n.rhsNonContracting by decide)]
  rfl

/-- Entry `(a, b)` of the product into a zero accumulator is the row of the left factor against the column of the
    right one. -/
theorem mm2_apply (l : FVec Ideal S64x64 .f32) (r : FVec Ideal S64x32768 .f32) (a : Fin 64) (b : Fin 32768) :
    matmul dot_S64x64_S64x32768_S64x32768_1_0_0_1_n_n none l r (constant S64x32768 .f32 0x00000000#32) (ix2 a b)
      = ∑ k : Fin 64, l (ix2 a k) * r (ix2 k b) := by
  show FloatOps.matmul dot_S64x64_S64x32768_S64x32768_1_0_0_1_n_n none l r (constant S64x32768 .f32 0x00000000#32) (ix2 a b) = _
  rw [Ideal.matmul_constant_zero_apply, ← Equiv.sum_comp (contrEquiv1 dot_S64x64_S64x32768_S64x32768_1_0_0_1_n_n 64 rfl rfl).symm]
  refine Finset.sum_congr rfl fun k _ => ?_
  have hk := contrEquiv1_symm_val dot_S64x64_S64x32768_S64x32768_1_0_0_1_n_n 64 rfl rfl k
  have el : dot_S64x64_S64x32768_S64x32768_1_0_0_1_n_n.lhsIdx (ix2 a b) ((contrEquiv1 dot_S64x64_S64x32768_S64x32768_1_0_0_1_n_n 64 rfl rfl).symm k) = ix2 a k := funext fun x => Fin.ext (by
    match x with
    | ⟨0, _⟩ => exact lhs_mm2_0 _ _
    | ⟨1, _⟩ => exact (lhs_mm2_1 _ _).trans hk)
  have er : dot_S64x64_S64x32768_S64x32768_1_0_0_1_n_n.rhsIdx (ix2 a b) ((contrEquiv1 dot_S64x64_S64x32768_S64x32768_1_0_0_1_n_n 64 rfl rfl).symm k) = ix2 k b := funext fun x => Fin.ext (by
    match x with
    | ⟨0, _⟩ => exact (rhs_mm2_0 _ _).trans hk
    | ⟨1, _⟩ => exact rhs_mm2_1 _ _)
  rw [el, er]

/-! ### The product `mm3`: [3, 64] × [64, 32768] -/

theorem lhs_mm3_0 (i : S3x32768.Idx) (q : dot_S3x64_S64x32768_S3x32768_1_0_0_1_n_n.contr.Idx) :
    (dot_S3x64_S64x32768_S3x32768_1_0_0_1_n_n.lhsIdx i q 0).val = (i 0).val := by
  unfold DotDims.lhsIdx
  rw [dif_neg (show ¬(0 : Fin S3x64.rank) ∈ dot_S3x64_S64x32768_S3x32768_1_0_0_1_n_n.lhsBatch by decide), dif_pos (show (0 : Fin S3x64.rank) ∈ dot_S3x64_S64x32768_S3x32768_1_0_0_1_n_n.lhsNonContracting by decide)]
  rfl
theorem lhs_mm3_1 (i : S3x32768.Idx) (q : dot_S3x64_S64x32768_S3x32768_1_0_0_1_n_n.contr.Idx) :
    (dot_S3x64_S64x32768_S3x32768_1_0_0_1_n_n.lhsIdx i q 1).val = (q ⟨0, by decide⟩).val :=
  dot_S3x64_S64x32768_S3x32768_1_0_0_1_n_n.lhsIdx_val_of_single rfl i q
theorem rhs_mm3_0 (i : S3x32768.Idx) (q : dot_S3x64_S64x32768_S3x32768_1_0_0_1_n_n.contr.Idx) :
    (dot_S3x64_S64x32768_S3x32768_1_0_0_1_n_n.rhsIdx i q 0).val = (q ⟨0, by decide⟩).val :=
  dot_S3x64_S64x32768_S3x32768_1_0_0_1_n_n.rhsIdx_val_of_single rfl i q
theorem rhs_mm3_1 (i : S3x32768.Idx) (q : dot_S3x64_S64x32768_S3x32768_1_0_0_1_n_n.contr.Idx) :
    (dot_S3x64_S64x32768_S3x32768_1_0_0_1_n_n.rhsIdx i q 1).val = (i 1).val := by
  unfold DotDims.rhsIdx
  rw [dif_neg (show ¬(1 : Fin S64x32768.rank) ∈ dot_S3x64_S64x32768_S3x32768_1_0_0_1_n_n.rhsBatch by decide), dif_pos (show (1 : Fin S64x32768.rank) ∈ dot_S3x64_S64x32768_S3x32768_1_0_0_1_n_n.rhsNonContracting by decide)]
  rfl

/-- Entry `(a, b)` of the product into a zero accumulator is the row of the left factor against the column of the
    right one. -/
theorem mm3_apply (l : FVec Ideal S3x64 .f32) (r : FVec Ideal S64x32768 .f32) (a : Fin 3) (b : Fin 32768) :
    matmul dot_S3x64_S64x32768_S3x32768_1_0_0_1_n_n none l r (constant S3x32768 .f32 0x00000000#32) (ix2 a b)
      = ∑ k : Fin 64, l (ix2 a k) * r (ix2 k b) := by
  show FloatOps.matmul dot_S3x64_S64x32768_S3x32768_1_0_0_1_n_n none l r (constant S3x32768 .f32 0x00000000#32) (ix2 a b) = _
  rw [Ideal.matmul_constant_zero_apply, ← Equiv.sum_comp (contrEquiv1 dot_S3x64_S64x32768_S3x32768_1_0_0_1_n_n 64 rfl rfl).symm]
  refine Finset.sum_congr rfl fun k _ => ?_
  have hk := contrEquiv1_symm_val dot_S3x64_S64x32768_S3x32768_1_0_0_1_n_n 64 rfl rfl k
  have el : dot_S3x64_S64x32768_S3x32768_1_0_0_1_n_n.lhsIdx (ix2 a b) ((contrEquiv1 dot_S3x64_S64x32768_S3x32768_1_0_0_1_n_n 64 rfl rfl).symm k) = ix2 a k := funext fun x => Fin.ext (by
    match x with
    | ⟨0, _⟩ => exact lhs_mm3_0 _ _
    | ⟨1, _⟩ => exact (lhs_mm3_1 _ _).trans hk)
  have er : dot_S3x64_S64x32768_S3x32768_1_0_0_1_n_n.rhsIdx (ix2 a b) ((contrEquiv1 dot_S3x64_S64x32768_S3x32768_1_0_0_1_n_n 64 rfl rfl).symm k) = ix2 k b := funext fun x => Fin.ext (by
    match x with
    | ⟨0, _⟩ => exact (rhs_mm3_0 _ _).trans hk
    | ⟨1, _⟩ => exact rhs_mm3_1 _ _)
  rw [el, er]

/-! ### Column biases broadcast along the lanes -/

/-- A `[64, 1]` column broadcast to `[64, 32768]` reads its row. -/
theorem col64_apply (v : FVec Ideal S64x1 .f32) (h : Fin 64) (q : Fin 32768) :
    broadcastTo S64x32768 v broadcasts_S64x1_S64x32768 (ix2 h q) = v (ix2 h 0) :=
  broadcastTo_apply v broadcasts_S64x1_S64x32768 (ix2 h q) (ix2 h 0) (fun a => by
    match a with
    | ⟨0, _⟩ => rfl
    | ⟨1, _⟩ => rfl)

/-- A `[3, 1]` column broadcast to `[3, 32768]` reads its row. -/
theorem col3_apply (v : FVec Ideal S3x1 .f32) (j : Fin 3) (q : Fin 32768) :
    broadcastTo S3x32768 v broadcasts_S3x1_S3x32768 (ix2 j q) = v (ix2 j 0) :=
  broadcastTo_apply v broadcasts_S3x1_S3x32768 (ix2 j q) (ix2 j 0) (fun a => by
    match a with
    | ⟨0, _⟩ => rfl
    | ⟨1, _⟩ => rfl)

/-! ### The layers -/

/-- The first layer's rectified output at `(h, q)` is `Mlp.hidden` of column `q` of the feature block. -/
theorem layer1_apply (w : FVec Ideal S64x19 .f32) (x : FVec Ideal S19x32768 .f32) (c : FVec Ideal S64x1 .f32) (h : Fin 64) (q : Fin 32768) :
    maximumf (addf (matmul dot_S64x19_S19x32768_S64x32768_1_0_0_1_n_n none w x (constant S64x32768 .f32 0x00000000#32))
        (broadcastTo S64x32768 c broadcasts_S64x1_S64x32768)) (broadcast S64x32768 (Scalar.ofBits .f32 0x00000000#32)) (ix2 h q)
      = Mlp.hidden (fun k h => w (ix2 h k)) (fun h => c (ix2 h 0)) (fun k => x (ix2 k q)) h := by
  show max (matmul dot_S64x19_S19x32768_S64x32768_1_0_0_1_n_n none w x (constant S64x32768 .f32 0x00000000#32) (ix2 h q)
      + broadcastTo S64x32768 c broadcasts_S64x1_S64x32768 (ix2 h q)) Mlp.zero = _
  rw [mm1_apply, col64_apply]
  rfl

/-- The second layer likewise, over any `[64, 32768]` block of first-layer outputs. -/
theorem layer2_apply (w : FVec Ideal S64x64 .f32) (x : FVec Ideal S64x32768 .f32) (c : FVec Ideal S64x1 .f32) (h : Fin 64) (q : Fin 32768) :
    maximumf (addf (matmul dot_S64x64_S64x32768_S64x32768_1_0_0_1_n_n none w x (constant S64x32768 .f32 0x00000000#32))
        (broadcastTo S64x32768 c broadcasts_S64x1_S64x32768)) (broadcast S64x32768 (Scalar.ofBits .f32 0x00000000#32)) (ix2 h q)
      = Mlp.hidden (fun k h => w (ix2 h k)) (fun h => c (ix2 h 0)) (fun k => x (ix2 k q)) h := by
  show max (matmul dot_S64x64_S64x32768_S64x32768_1_0_0_1_n_n none w x (constant S64x32768 .f32 0x00000000#32) (ix2 h q)
      + broadcastTo S64x32768 c broadcasts_S64x1_S64x32768 (ix2 h q)) Mlp.zero = _
  rw [mm2_apply, col64_apply]
  rfl

/-- ENTRY `(j, q)` OF THE STORED BLOCK: the network of column `q` of the feature block, with the weights read
    output-major and the biases read down their columns. -/
theorem pay_apply (x0 : Vec Ideal S19x32768 .f32) (x1 : Vec Ideal S64x19 .f32) (x2 : Vec Ideal S64x1 .f32) (x3 : Vec Ideal S64x64 .f32)
    (x4 : Vec Ideal S64x1 .f32) (x5 : Vec Ideal S3x64 .f32) (x6 : Vec Ideal S3x1 .f32) (j : Fin 3) (q : Fin 32768) :
    k0_pay1 (F := Ideal) x0 x1 x2 x3 x4 x5 x6 (ix2 j q)
      = Mlp.out (fun k h => x1 (ix2 h k)) (fun h => x2 (ix2 h 0)) (fun k h => x3 (ix2 h k)) (fun h => x4 (ix2 h 0))
          (fun k j => x5 (ix2 j k)) (fun j => x6 (ix2 j 0)) (fun k => x0 (ix2 k q)) j := by
  unfold k0_pay1
  simp only [shapeCast_self]
  show Ideal.logistic (matmul (F := Ideal) dot_S3x64_S64x32768_S3x32768_1_0_0_1_n_n none x5 _ (constant S3x32768 .f32 0x00000000#32) (ix2 j q)
      + broadcastTo S3x32768 x6 broadcasts_S3x1_S3x32768 (ix2 j q)) = _
  rw [mm3_apply, col3_apply]
  simp only [layer2_apply, layer1_apply]
  rfl

end Cert.KernelIdeal.Body

end
-- ==== Proof.KernelBlocks.lean ====
/-
  From the body's blocks to the kernel's result array.

  The grid has 64 points; point `t` stages lanes `[32768·t, 32768·(t+1))` of the channel-major feature array
  (all 19 rows), the whole of each weight matrix and bias column, and writes back the same lanes of the `[3, N]`
  result.  Entry `(j, q)` of the block written back is the network of feature column `32768·t + q`
  (`Body.pay_apply`), which is entry `(j, 32768·t + q)` of `Mlp.cols` of the arrays as the region finds them.  The 64
  blocks tile the result, so after the run the result array IS that function.
-/
import proofs.«406248_j8211977470216_3_alg».proof.Proof.Gen.KernelIdeal.Frame
import proofs.«406248_j8211977470216_3_alg».proof.Proof.KernelBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array `[3, N]` as the region leaves it: the network in channel-major layout, of the seven arrays the
    region finds (features, then weights and bias columns layer by layer). -/
def colsOf (c : Dev nD) : S3x2097152.Idx → EReal :=
  Mlp.cols (V m c main_v21) (V m c main_v22) (V m c main_v25) (V m c main_v23) (V m c main_v26) (V m c main_v24) (V m c main_v27)

/-- The printed index maps over the 64 points: the feature and result windows sit at lane block `t`, row block 0;
    the six parameter windows at block (0, 0). -/
theorem idx_facts : ∀ t : Fin cfg0.N, t.val < 64
    ∧ win0_0.index t (0 : Fin 2) = 0 ∧ win0_0.index t (1 : Fin 2) = t.val
    ∧ win0_7.index t (0 : Fin 2) = 0 ∧ win0_7.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each staged block, read where it sits in its array -/

/-- The feature block at point `t`: lanes `32768·t + q`. -/
theorem read_x (c : Dev nD) (t : Fin cfg0.N) (k : Fin 19) (q : Fin 32768) (hq : t.val * 32768 + q.val < 2097152) :
    iblk m c 0 t (ix2 k q) = V m c main_v21 (ix2 k ⟨t.val * 32768 + q.val, hq⟩) := by
  obtain ⟨ht, e0, e1, -⟩ := idx_facts t
  show V m c main_v21 (((cfg0.win 0).blk t).view.emb (ix2 k q)) = _
  refine congrArg (V m c main_v21) (funext fun a => Fin.ext ?_)
  match a with
  | ⟨0, _⟩ => show win0_0.index t (0 : Fin 2) * 19 + 1 * k.val = k.val; omega
  | ⟨1, _⟩ => show win0_0.index t (1 : Fin 2) * 32768 + 1 * q.val = t.val * 32768 + q.val; omega

/-- The first layer's weights: the whole `[64, 19]` array at every point. -/
theorem read_w1 (c : Dev nD) (t : Fin cfg0.N) (h : Fin 64) (k : Fin 19) :
    iblk m c 1 t (ix2 h k) = V m c main_v22 (ix2 h k) := by
  obtain ⟨-, -, -, -, -, e0, e1, -⟩ := idx_facts t
  show V m c main_v22 (((cfg0.win 1).blk t).view.emb (ix2 h k)) = _
  refine congrArg (V m c main_v22) (funext fun a => Fin.ext ?_)
  match a with
  | ⟨0, _⟩ => show win0_1.index t (0 : Fin 2) * 64 + 1 * h.val = h.val; omega
  | ⟨1, _⟩ => show win0_1.index t (1 : Fin 2) * 19 + 1 * k.val = k.val; omega

/-- The first layer's bias column. -/
theorem read_c1 (c : Dev nD) (t : Fin cfg0.N) (h : Fin 64) :
    iblk m c 2 t (ix2 h (0 : Fin 1)) = V m c main_v25 (ix2 h (0 : Fin 1)) := by
  obtain ⟨-, -, -, -, -, -, -, e0, e1, -⟩ := idx_facts t
  show V m c main_v25 (((cfg0.win 2).blk t).view.emb (ix2 h (0 : Fin 1))) = _
  refine congrArg (V m c main_v25) (funext fun a => Fin.ext ?_)
  match a with
  | ⟨0, _⟩ => show win0_2.index t (0 : Fin 2) * 64 + 1 * h.val = h.val; omega
  | ⟨1, _⟩ => show win0_2.index t (1 : Fin 2) * 1 + 1 * 0 = 0; omega

/-- The second layer's weights. -/
theorem read_w2 (c : Dev nD) (t : Fin cfg0.N) (h : Fin 64) (k : Fin 64) :
    iblk m c 3 t (ix2 h k) = V m c main_v23 (ix2 h k) := by
  obtain ⟨-, -, -, -, -, -, -, -, -, e0, e1, -⟩ := idx_facts t
  show V m c main_v23 (((cfg0.win 3).blk t).view.emb (ix2 h k)) = _
  refine congrArg (V m c main_v23) (funext fun a => Fin.ext ?_)
  match a with
  | ⟨0, _⟩ => show win0_3.index t (0 : Fin 2) * 64 + 1 * h.val = h.val; omega
  | ⟨1, _⟩ => show win0_3.index t (1 : Fin 2) * 64 + 1 * k.val = k.val; omega

/-- The second layer's bias column. -/
theorem read_c2 (c : Dev nD) (t : Fin cfg0.N) (h : Fin 64) :
    iblk m c 4 t (ix2 h (0 : Fin 1)) = V m c main_v26 (ix2 h (0 : Fin 1)) := by
  obtain ⟨-, -, -, -, -, -, -, -, -, -, -, e0, e1, -⟩ := idx_facts t
  show V m c main_v26 (((cfg0.win 4).blk t).view.emb (ix2 h (0 : Fin 1))) = _
  refine congrArg (V m c main_v26) (funext fun a => Fin.ext ?_)
  match a with
  | ⟨0, _⟩ => show win0_4.index t (0 : Fin 2) * 64 + 1 * h.val = h.val; omega
  | ⟨1, _⟩ => show win0_4.index t (1 : Fin 2) * 1 + 1 * 0 = 0; omega

/-- The third layer's weights. -/
theorem read_w3 (c : Dev nD) (t : Fin cfg0.N) (j : Fin 3) (k : Fin 64) :
    iblk m c 5 t (ix2 j k) = V m c main_v24 (ix2 j k) := by
  obtain ⟨-, -, -, -, -, -, -, -, -, -, -, -, -, e0, e1, -⟩ := idx_facts t
  show V m c main_v24 (((cfg0.win 5).blk t).view.emb (ix2 j k)) = _
  refine congrArg (V m c main_v24) (funext fun a => Fin.ext ?_)
  match a with
  | ⟨0, _⟩ => show win0_5.index t (0 : Fin 2) * 3 + 1 * j.val = j.val; omega
  | ⟨1, _⟩ => show win0_5.index t (1 : Fin 2) * 64 + 1 * k.val = k.val; omega

/-- The third layer's bias column. -/
theorem read_c3 (c : Dev nD) (t : Fin cfg0.N) (j : Fin 3) :
    iblk m c 6 t (ix2 j (0 : Fin 1)) = V m c main_v27 (ix2 j (0 : Fin 1)) := by
  obtain ⟨-, -, -, -, -, -, -, -, -, -, -, -, -, -, -, e0, e1⟩ := idx_facts t
  show V m c main_v27 (((cfg0.win 6).blk t).view.emb (ix2 j (0 : Fin 1))) = _
  refine congrArg (V m c main_v27) (funext fun a => Fin.ext ?_)
  match a with
  | ⟨0, _⟩ => show win0_6.index t (0 : Fin 2) * 3 + 1 * j.val = j.val; omega
  | ⟨1, _⟩ => show win0_6.index t (1 : Fin 2) * 1 + 1 * 0 = 0; omega

/-! ## What a point writes back -/

/-- Entry `(j, 32768·t + q)` of `colsOf`, written over the blocks staged at point `t`. -/
theorem cols_at (c : Dev nD) (t : Fin cfg0.N) (j : Fin 3) (q : Fin 32768) (hq : t.val * 32768 + q.val < 2097152) :
    colsOf m c (ix2 j (⟨t.val * 32768 + q.val, hq⟩ : Fin 2097152))
      = Mlp.out (fun k h => iblk m c 1 t (ix2 h k)) (fun h => iblk m c 2 t (ix2 h (0 : Fin 1))) (fun k h => iblk m c 3 t (ix2 h k))
          (fun h => iblk m c 4 t (ix2 h (0 : Fin 1))) (fun k j => iblk m c 5 t (ix2 j k)) (fun j => iblk m c 6 t (ix2 j (0 : Fin 1)))
          (fun k => iblk m c 0 t (ix2 k q)) j := by
  have ex : (fun k : Fin 19 => iblk m c 0 t (ix2 k q)) = fun k : Fin 19 => V m c main_v21 (ix2 k (⟨t.val * 32768 + q.val, hq⟩ : Fin 2097152)) :=
    funext fun k => read_x m c t k q hq
  have e1' : (fun (k : Fin 19) (h : Fin 64) => iblk m c 1 t (ix2 h k)) = fun (k : Fin 19) (h : Fin 64) => V m c main_v22 (ix2 h k) :=
    funext fun k => funext fun h => read_w1 m c t h k
  have e2' : (fun h : Fin 64 => iblk m c 2 t (ix2 h (0 : Fin 1))) = fun h : Fin 64 => V m c main_v25 (ix2 h (0 : Fin 1)) :=
    funext fun h => read_c1 m c t h
  have e3' : (fun (k : Fin 64) (h : Fin 64) => iblk m c 3 t (ix2 h k)) = fun (k : Fin 64) (h : Fin 64) => V m c main_v23 (ix2 h k) :=
    funext fun k => funext fun h => read_w2 m c t h k
  have e4' : (fun h : Fin 64 => iblk m c 4 t (ix2 h (0 : Fin 1))) = fun h : Fin 64 => V m c main_v26 (ix2 h (0 : Fin 1)) :=
    funext fun h => read_c2 m c t h
  have e5' : (fun (k : Fin 64) (j : Fin 3) => iblk m c 5 t (ix2 j k)) = fun (k : Fin 64) (j : Fin 3) => V m c main_v24 (ix2 j k) :=
    funext fun k => funext fun j => read_w3 m c t j k
  have e6' : (fun j : Fin 3 => iblk m c 6 t (ix2 j (0 : Fin 1))) = fun j : Fin 3 => V m c main_v27 (ix2 j (0 : Fin 1)) :=
    funext fun j => read_c3 m c t j
  rw [ex, e1', e2', e3', e4', e5', e6']
  exact Mlp.cols_apply (V m c main_v21) (V m c main_v22) (V m c main_v25) (V m c main_v23) (V m c main_v26) (V m c main_v24) (V m c main_v27) j ⟨t.val * 32768 + q.val, hq⟩

/-- WHAT POINT `t` WRITES BACK is block `t` of `colsOf`. -/
theorem flushed_eq (c : Dev nD) (t : Fin cfg0.N) :
    (dats m 0 c).flushed 7 t = ((cfg0.win 7).blk t).view.read (Elt Ideal) (colsOf m c) := by
  show (cfg0.win 7).cut (grid0.coords t) ((dats m 0 c).after 7 t) = _
  rw [after0_7]
  unfold out0_7
  rw [View.canon_unit_zero hz]
  simp only [View.ld_unit_zero (S := S19x32768) hz, View.ld_unit_zero (S := S64x19) hz, View.ld_unit_zero (S := S64x1) hz,
    View.ld_unit_zero (S := S64x64) hz, View.ld_unit_zero (S := S3x64) hz, View.ld_unit_zero (S := S3x1) hz]
  generalize hp : k0_pay1 (F := Ideal) _ _ _ _ _ _ _ = P
  generalize hG : colsOf m c = G
  refine funext fun (y : S3x32768.Idx) => ?_
  obtain ⟨j, q, rfl⟩ : ∃ (j : Fin 3) (q : Fin 32768), y = ix2 j q := ⟨y 0, y 1, eq_ix2 y⟩
  obtain ⟨ht, -, -, e0, e1, -⟩ := idx_facts t
  have hq : t.val * 32768 + q.val < 2097152 := by have := q.isLt; omega
  have he : ((cfg0.win 7).blk t).view.emb (ix2 j q) = ix2 j (⟨t.val * 32768 + q.val, hq⟩ : Fin 2097152) := by
    funext a; apply Fin.ext
    match a with
    | ⟨0, _⟩ => show win0_7.index t (0 : Fin 2) * 3 + 1 * j.val = j.val; omega
    | ⟨1, _⟩ => show win0_7.index t (1 : Fin 2) * 32768 + 1 * q.val = t.val * 32768 + q.val; omega
  show P (ix2 j q) = G (((cfg0.win 7).blk t).view.emb (ix2 j q))
  rw [he, ← hp, ← hG]
  exact (Body.pay_apply (iblk m c 0 t) (iblk m c 1 t) (iblk m c 2 t) (iblk m c 3 t) (iblk m c 4 t) (iblk m c 5 t) (iblk m c 6 t) j q).trans
    (cols_at m c t j q hq).symm

/-! ## The blocks tile the result -/

/-- An index of the result is in point `t`'s block iff each coordinate is in the block's range on its axis. -/
theorem mem_blk (t : Fin cfg0.N) (i : S3x2097152.Idx) :
    i ∈ ((cfg0.win 7).blk t).view.set ↔ ∀ a : Fin 2, win0_7.index t a * S3x32768.size a ≤ (i a).val ∧ (i a).val < win0_7.index t a * S3x32768.size a + S3x32768.size a := by
  show i ∈ ((View.whole main_v28).slice (win0_7.rect t)).set ↔ _
  rw [View.set_slice_whole, Rect.mem_set_unit]
  exact Iff.rfl

/-- Lane `n` of the result lies in the block of point `n / 32768`. -/
theorem cover (i : S3x2097152.Idx) :
    ∃ t : Fin cfg0.N, (cfg0.win 7).flush t = true ∧ i ∈ ((cfg0.win 7).blk t).view.set := by
  have hi0 : (i 0).val < 3 := (i 0).isLt
  have hi1 : (i 1).val < 2097152 := (i 1).isLt
  have hN : (i 1).val / 32768 < cfg0.N := by show (i 1).val / 32768 < grid0.N; rw [N_0]; omega
  refine ⟨⟨(i 1).val / 32768, hN⟩, flush0_7 _, ?_⟩
  obtain ⟨-, -, -, e0, e1, -⟩ := idx_facts ⟨(i 1).val / 32768, hN⟩
  rw [mem_blk]
  intro a
  match a with
  | ⟨0, _⟩ =>
    show win0_7.index ⟨(i 1).val / 32768, hN⟩ (0 : Fin 2) * 3 ≤ (i 0).val ∧ (i 0).val < win0_7.index ⟨(i 1).val / 32768, hN⟩ (0 : Fin 2) * 3 + 3
    omega
  | ⟨1, _⟩ =>
    show win0_7.index ⟨(i 1).val / 32768, hN⟩ (1 : Fin 2) * 32768 ≤ (i 1).val ∧ (i 1).val < win0_7.index ⟨(i 1).val / 32768, hN⟩ (1 : Fin 2) * 32768 + 32768
    have e1'' : win0_7.index ⟨(i 1).val / 32768, hN⟩ (1 : Fin 2) = (i 1).val / 32768 := e1
    omega

/-- THE RESULT ARRAY after the run is `colsOf`. -/
theorem final (c : Dev nD) : (dats m 0 c).arrAt 7 cfg0.N = colsOf m c :=
  (dats m 0 c).arrAt_eq_of_cover 7 (colsOf m c) (fun t _ => flushed_eq m c t) cover

end Cert.KernelIdeal.Blocks

end
-- ==== Proof.KernelHost.lean ====
/-
  The host lines around the kernel's region, read as values.

  Before the region the program hashes the positions to table rows, gathers the rows, joins them with the normals into
  the point-major feature array `[N, 19]`, and re-lays everything for the kernel: features and the three weight
  matrices transposed, the three biases reshaped to columns.  After the region it transposes the `[3, N]` result back
  to `[N, 3]`.  This module states each of those arrays as that operation of its source, and with them that the
  program's result is the row-major network `Mlp.rows` of the feature array and the weights and biases as given.
-/
import proofs.«406248_j8211977470216_3_alg».proof.Proof.KernelBlocks
import Idealize.ShloMosaic.Lib.StableHlo.Run

set_option maxRecDepth 16384

noncomputable section

open scoped BigOperators

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable {F : FTy → Type} [FloatOps F]
variable (m : (ℓ : Loc nD τ sig) → Buf (Elt F) ℓ)

/-! ## The stretches before the region, one valuation each -/

/-- Core `c`'s buffers after the hashing stretch. -/
def afterHash (c : Dev nD) : Valuation τ sig (Elt F) := StableHlo.after hostOps0 (fun b => m (c, b))
/-- … and after the table lookup. -/
def afterTake (c : Dev nD) : Valuation τ sig (Elt F) := StableHlo.after hostOps0_1 (afterHash m c)

/-- The region finds what the re-laying stretch leaves of those. -/
theorem V0_eq (c : Dev nD) : V0 m c = StableHlo.after hostOps0_2 (afterTake m c) := by
  show StableHlo.after (List.flatten [hostOps0, hostOps0_1, hostOps0_2]) (fun b => m (c, b)) = _
  rw [List.flatten_cons, List.flatten_cons, List.flatten_cons, List.flatten_nil, List.append_nil,
    StableHlo.after_append, StableHlo.after_append]
  rfl

/-- The feature array `[N, 19]`: the looked-up rows joined with the normals along the channel axis. -/
theorem feat_eq (c : Dev nD) :
    V m c main_v20 = concatenate S2097152x19 1 [⟨S2097152x16, afterTake m c (Proc.devRef .tc main_v19)⟩, ⟨S2097152x3, afterTake m c (Proc.devRef .tc main_arg1)⟩]
      concatenates_S2097152x16_S2097152x3_S2097152x19_d1 := by
  show V0 m c (Proc.devRef .tc main_v20) = _
  rw [V0_eq]
  generalize afterTake m c = W
  after_results

/-- The kernel's feature operand is its transpose. -/
theorem featT_eq (c : Dev nD) :
    V m c main_v21 = transpose S19x2097152 [1, 0] (V m c main_v20) transposes_S2097152x19_S19x2097152_1_0 := by
  show V0 m c (Proc.devRef .tc main_v21) = transpose S19x2097152 [1, 0] (V0 m c (Proc.devRef .tc main_v20)) transposes_S2097152x19_S19x2097152_1_0
  rw [V0_eq]
  generalize afterTake m c = W
  after_results

/-! ## The arrays the re-laying stretch only reads -/

/-- The normals are as launched when the features are joined. -/
theorem keep_normal (c : Dev nD) : afterTake m c (Proc.devRef .tc main_arg1) = m ((c : Thread nD τ).loc main_arg1) := by
  refine Eq.trans ?_ (V_main_arg1 m c)
  show _ = V0 m c (Proc.devRef .tc main_arg1)
  rw [V0_eq]
  generalize afterTake m c = W
  after_results

/-! ## The weights and biases as the kernel is handed them -/

/-- First-layer weights, output-major. -/
theorem w1T_eq (c : Dev nD) :
    V m c main_v22 = transpose S64x19 [1, 0] (m ((c : Thread nD τ).loc main_arg3)) transposes_S19x64_S64x19_1_0 := by
  rw [← V_main_arg3 m c]
  show V0 m c (Proc.devRef .tc main_v22) = transpose S64x19 [1, 0] (V0 m c (Proc.devRef .tc main_arg3)) transposes_S19x64_S64x19_1_0
  rw [V0_eq]
  generalize afterTake m c = W
  after_results

/-- Second-layer weights, output-major. -/
theorem w2T_eq (c : Dev nD) :
    V m c main_v23 = transpose S64x64 [1, 0] (m ((c : Thread nD τ).loc main_arg5)) transposes_S64x64_S64x64_1_0 := by
  rw [← V_main_arg5 m c]
  show V0 m c (Proc.devRef .tc main_v23) = transpose S64x64 [1, 0] (V0 m c (Proc.devRef .tc main_arg5)) transposes_S64x64_S64x64_1_0
  rw [V0_eq]
  generalize afterTake m c = W
  after_results

/-- Third-layer weights, output-major. -/
theorem w3T_eq (c : Dev nD) :
    V m c main_v24 = transpose S3x64 [1, 0] (m ((c : Thread nD τ).loc main_arg7)) transposes_S64x3_S3x64_1_0 := by
  rw [← V_main_arg7 m c]
  show V0 m c (Proc.devRef .tc main_v24) = transpose S3x64 [1, 0] (V0 m c (Proc.devRef .tc main_arg7)) transposes_S64x3_S3x64_1_0
  rw [V0_eq]
  generalize afterTake m c = W
  after_results

/-- First-layer bias as a column. -/
theorem c1_eq (c : Dev nD) :
    V m c main_v25 = shapeCast S64x1 (m ((c : Thread nD τ).loc main_arg4)) shapeCasts_S64_S64x1 := by
  rw [← V_main_arg4 m c]
  show V0 m c (Proc.devRef .tc main_v25) = shapeCast S64x1 (V0 m c (Proc.devRef .tc main_arg4)) shapeCasts_S64_S64x1
  rw [V0_eq]
  generalize afterTake m c = W
  after_results
  rfl

/-- Second-layer bias as a column. -/
theorem c2_eq (c : Dev nD) :
    V m c main_v26 = shapeCast S64x1 (m ((c : Thread nD τ).loc main_arg6)) shapeCasts_S64_S64x1 := by
  rw [← V_main_arg6 m c]
  show V0 m c (Proc.devRef .tc main_v26) = shapeCast S64x1 (V0 m c (Proc.devRef .tc main_arg6)) shapeCasts_S64_S64x1
  rw [V0_eq]
  generalize afterTake m c = W
  after_results
  rfl

/-- Third-layer bias as a column. -/
theorem c3_eq (c : Dev nD) :
    V m c main_v27 = shapeCast S3x1 (m ((c : Thread nD τ).loc main_arg8)) shapeCasts_S3_S3x1 := by
  rw [← V_main_arg8 m c]
  show V0 m c (Proc.devRef .tc main_v27) = shapeCast S3x1 (V0 m c (Proc.devRef .tc main_arg8)) shapeCasts_S3_S3x1
  rw [V0_eq]
  generalize afterTake m c = W
  after_results
  rfl

/-! ## Layout operations at an index -/

/-- A two-axis transpose reads the swapped index. -/
theorem swap_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => by
    match d with
    | ⟨0, _⟩ => rfl
    | ⟨1, _⟩ => rfl)

/-- A flat array viewed as a column reads its row. -/
theorem column_apply {α : Type} {A : Nat} (x : (⟨1, ![A]⟩ : Shape).Idx → α)
    (h : (⟨1, ![A]⟩ : Shape).ShapeCasts ⟨2, ![A, 1]⟩) (a : Fin A) :
    shapeCast ⟨2, ![A, 1]⟩ x h (ix2 a (0 : Fin 1)) = x (ix1 a) :=
  shapeCast_apply x h (ix2 a (0 : Fin 1)) (ix1 a) (by
    rw [Shape.rowMajor_val_one, Shape.rowMajor_val_two]
    show a.val = a.val * 1 + 0
    omega)

end Cert.KernelIdeal.Host

/-! ## The program's result -/

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- After the run the result buffer holds the transpose of the region's `[3, N]` array. -/
theorem out_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v29) = transpose S2097152x3 [1, 0] (Blocks.colsOf m c) transposes_S3x2097152_S2097152x3_1_0 := by
  refine ((h c).2 main_v29 (Pipeline.mem_restRefs_of main_v29 (by decide) (by decide))).trans ?_
  unfold Pipeline.afterTail₀
  show StableHlo.after hostOps1 _ (Proc.devRef .tc main_v29) = _
  after_results
  rw [show Pipeline.withArrays spec0 c (V0 m c) (fun w => (dats m 0 c).arrAt w cfg0.N) (Proc.devRef .tc main_v28) = Blocks.colsOf m c from
    (Pipeline.withArrays_arr spec0 launch0.win.arr_inj c _ _ 7).trans (Blocks.final m c)]

/-- THE KERNEL PROGRAM'S RESULT: the row-major network of the feature array the host lines build, with the weights
    and biases as given. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v29)
      = Mlp.rows (V m c main_v20) (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) := by
  rw [out_eq m r h c]
  refine funext fun (i : S2097152x3.Idx) => ?_
  obtain ⟨n, j, rfl⟩ : ∃ (n : Fin 2097152) (j : Fin 3), i = ix2 n j := ⟨i 0, i 1, eq_ix2 i⟩
  refine (swap_apply (Blocks.colsOf m c) transposes_S3x2097152_S2097152x3_1_0 n j).trans ?_
  unfold Blocks.colsOf
  refine Mlp.cols_eq_rows (V m c main_v20) (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (V m c main_v21) (V m c main_v22) (V m c main_v25) (V m c main_v23) (V m c main_v26) (V m c main_v24) (V m c main_v27)
    ?_ ?_ ?_ ?_ ?_ ?_ ?_ n j
  · intro k n; rw [featT_eq]; exact swap_apply _ _ k n
  · intro h k; rw [w1T_eq]; exact swap_apply _ _ h k
  · intro h; rw [c1_eq]; exact column_apply _ _ h
  · intro h k; rw [w2T_eq]; exact swap_apply _ _ h k
  · intro h; rw [c2_eq]; exact column_apply _ _ h
  · intro j k; rw [w3T_eq]; exact swap_apply _ _ j k
  · intro j; rw [c3_eq]; exact column_apply _ _ j

end Cert.KernelIdeal.Host

end
-- ==== Proof.LibMaskedIndex.lean ====
/-
  Words masked to their low bits, used as table indices; and an `and`-reduction of an all-ones mask.

  A 32-bit word `h &&& mask` with `mask` below 2³¹ is, read signed, between 0 and `mask`: it is never negative, so a
  "wrap negative indices" select leaves it alone, and the in-bounds test `0 ≤ i ∧ i ≤ mask` of a checked table lookup
  always passes.  An `and`-reduction over one axis whose operand is all ones, from the initial bit one, is one.
-/
import Idealize.ShloMosaic.Lib.StableHlo.Predicate
import Idealize.ShloMosaic.Lib.ValueIdx
import Idealize.ShloMosaic.PureOps.Reduce

namespace Cert.LibMaskedIndex

open Idealize.ShloMosaic Idealize.ShloMosaic.StableHlo.Predicate

/-- `h &&& mask` is at most `mask` as a natural number. -/
theorem andi_toNat_le (h mask : BitVec 32) : (IntOp.andi h mask).toNat ≤ mask.toNat := by
  unfold IntOp.andi
  rw [BitVec.toNat_and]
  exact Nat.and_le_right

/-- A masked word is not negative: the signed comparison with zero is the bit zero. -/
theorem andi_not_slt_zero (h mask : BitVec 32) (hm : mask.toNat < 2 ^ 31) :
    IntOp.cmpi .slt (IntOp.andi h mask) 0#32 = 0#1 := by
  have hle := andi_toNat_le h mask
  refine ValueIdx.eq_zero_of_ne_one fun e => ?_
  have hlt := (slt_iff_toNat (a := IntOp.andi h mask) (b := 0#32) (by omega) (by decide)).mp e
  exact absurd hlt (by simp)

/-- A masked word is at least zero, read signed. -/
theorem andi_sge_zero (h mask : BitVec 32) (hm : mask.toNat < 2 ^ 31) :
    IntOp.cmpi .sge (IntOp.andi h mask) 0#32 = 1#1 :=
  (sge_iff_toNat (a := IntOp.andi h mask) (b := 0#32) (by have := andi_toNat_le h mask; omega) (by decide)).mpr (by simp)

/-- A masked word is at most the mask, read signed. -/
theorem andi_sle_mask (h mask : BitVec 32) (hm : mask.toNat < 2 ^ 31) :
    IntOp.cmpi .sle (IntOp.andi h mask) mask = 1#1 :=
  (sle_iff_toNat (a := IntOp.andi h mask) (b := mask) (by have := andi_toNat_le h mask; omega) hm).mpr (andi_toNat_le h mask)

/-- Folding `and` over any finite set of ones from one gives one. -/
theorem fold_andi_ones {ι : Type} [DecidableEq ι] (S : Finset ι) :
    S.fold IntOp.andi (1#1 : BitVec 1) (fun _ => 1#1) = 1#1 := by
  induction S using Finset.induction_on with
  | empty => rfl
  | insert a S ha ih => rw [Finset.fold_insert ha, ih]; rfl

/-- An `and`-reduction over one axis of an all-ones array, from the initial bit one, is one everywhere. -/
theorem reduce_andi_ones {s t u : Shape} {a : Fin s.rank} (x : s.Idx → BitVec 1) (init : u.Idx → BitVec 1)
    (h' : s.ReducesTo [a] t) (h : s.Reduces [a] t) (hu : 0 < u.numel)
    (hx : ∀ i, x i = 1#1) (hi : ∀ i, init i = 1#1) (j : t.Idx) :
    Host.reduce IntOp.andi x init h' hu j = 1#1 := by
  rw [Host.reduce_eq_fold_single IntOp.andi x init h' h hu j, hi]
  have hc : x ∘ h.lift j = fun _ => 1#1 := funext fun k => hx _
  rw [hc]
  exact fold_andi_ones _

end Cert.LibMaskedIndex
-- ==== Proof.KernelTake.lean ====
/-
  The kernel program's table lookup is the reference's gather.

  Both programs hash a position to a 32-bit word and keep its low 15 bits: `idx = h &&& 32767`.  Both then wrap a
  negative index (`idx < 0 ? idx + 32768 : idx`) and gather row `idx` of the `[32768, 16]` table.  The kernel program's
  lookup is the checked kind: it also tests `0 ≤ idx ≤ 32767` and puts the NaN word where the test fails.  A word masked
  to 15 bits is never negative and never above 32767, so the test passes at every point, the select keeps the gathered
  row, and the two feature arrays — gathered rows joined with the normals — are one array.
-/
import proofs.«406248_j8211977470216_3_alg».proof.Proof.KernelHost
import proofs.«406248_j8211977470216_3_alg».proof.Proof.RefRead
import proofs.«406248_j8211977470216_3_alg».proof.Proof.LibMaskedIndex

set_option maxRecDepth 16384

noncomputable section

namespace Cert.KernelIdeal.Take

open Cert.KernelIdeal Cert.KernelIdeal.Gen Cert.KernelIdeal.Host Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-! ## The lookup's operations, as functions -/

/-- The index column the gather reads: a negative index wrapped by the table's height, as a `[N, 1]` array. -/
def wrapIdx (idx : IVec S2097152 32) : IVec S2097152x1 32 :=
  broadcastInDim S2097152x1 ![0] bcast_S2097152_S2097152x1_0
    (select (cmpi .slt idx (broadcastInDim S2097152 ![] bcast_S_S2097152 (constantI S_ 32 0#32)))
      (addi idx (broadcastInDim S2097152 ![] bcast_S_S2097152 (constantI S_ 32 32768#32))) idx)

/-- The in-bounds test of the checked lookup, per point: `0 ≤ i ∧ i ≤ 32767`, `and`-reduced over the unit axis. -/
def inBounds (I : IVec S2097152x1 32) : IVec S2097152 1 :=
  Host.reduce IntOp.andi
    (andi (cmpi .sge I (broadcastInDim S2097152x1 ![] bcast_S_S2097152x1 (constantI S_ 32 0#32)))
      (cmpi .sle I (broadcastInDim S2097152x1 ![0, 1] bcast_S1x1_S2097152x1_0_1 (broadcastInDim S1x1 ![1] bcast_S1_S1x1_1 (constantI S1 32 32767#32)))))
    (constantI S_ 1 1#1) reducesTo_S2097152x1_S2097152_d1 h_S_

/-- The checked lookup: the gathered row where the test passes, the NaN word elsewhere. -/
def checkedTake (emb : FVec F S32768x16 .f32) (I : IVec S2097152x1 32) : FVec F S2097152x16 .f32 :=
  select (broadcastInDim S2097152x16 ![0] bcast_S2097152_S2097152x16_0 (inBounds I))
    (Host.gather gather_S32768x16_S2097152x1_S2097152x16_1_0_n_n_0_1_116 emb I)
    (broadcastInDim S2097152x16 ![] bcast_S_S2097152x16 (constant S_ .f32 0x7FC00000#32))

/-! ## The lookup stretch in three parts -/

/-- Its first eight lines: the wrapped index column. -/
abbrev opsIdx : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S2097152, .i32⟩) (broadcastInDim S2097152 ![] bcast_S_S2097152),
    StableHlo.TRef.binary (.of main_v18 : StableHlo.TRef sig ⟨S2097152, .i32⟩) (.of main_call0_v0 : StableHlo.TRef sig ⟨S2097152, .i32⟩) (.of main_call0_v1 : StableHlo.TRef sig ⟨S2097152, .i1⟩) (cmpi .slt),
    StableHlo.TRef.nullary (.of main_call0_c_0 : StableHlo.TRef sig ⟨S_, .i32⟩) (constantI S_ 32 32768#32),
    StableHlo.TRef.unary (.of main_call0_c_0 : StableHlo.TRef sig ⟨S_, .i32⟩) (.of main_call0_v2 : StableHlo.TRef sig ⟨S2097152, .i32⟩) (broadcastInDim S2097152 ![] bcast_S_S2097152),
    StableHlo.TRef.binary (.of main_v18 : StableHlo.TRef sig ⟨S2097152, .i32⟩) (.of main_call0_v2 : StableHlo.TRef sig ⟨S2097152, .i32⟩) (.of main_call0_v3 : StableHlo.TRef sig ⟨S2097152, .i32⟩) addi,
    StableHlo.TRef.ternary (.of main_call0_v1 : StableHlo.TRef sig ⟨S2097152, .i1⟩) (.of main_call0_v3 : StableHlo.TRef sig ⟨S2097152, .i32⟩) (.of main_v18 : StableHlo.TRef sig ⟨S2097152, .i32⟩) (.of main_call0_v4 : StableHlo.TRef sig ⟨S2097152, .i32⟩) select,
    StableHlo.TRef.unary main_call0_call0.v0 (.of main_call0_v5 : StableHlo.TRef sig ⟨S2097152x1, .i32⟩) (broadcastInDim S2097152x1 ![0] bcast_S2097152_S2097152x1_0) ]
/-- Its next ten lines: the in-bounds test. -/
abbrev opsTest : List (HloOp τ sig (Elt F)) :=
  [ StableHlo.TRef.nullary (.of main_call0_c_1 : StableHlo.TRef sig ⟨S1, .i32⟩) (constantI S1 32 32767#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S2097152x1, .i32⟩) (broadcastInDim S2097152x1 ![] bcast_S_S2097152x1),
    StableHlo.TRef.binary (.of main_call0_v5 : StableHlo.TRef sig ⟨S2097152x1, .i32⟩) (.of main_call0_v6 : StableHlo.TRef sig ⟨S2097152x1, .i32⟩) (.of main_call0_v7 : StableHlo.TRef sig ⟨S2097152x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S2097152x1, .i32⟩) (broadcastInDim S2097152x1 ![0, 1] bcast_S1x1_S2097152x1_0_1),
    StableHlo.TRef.binary (.of main_call0_v5 : StableHlo.TRef sig ⟨S2097152x1, .i32⟩) (.of main_call0_v9 : StableHlo.TRef sig ⟨S2097152x1, .i32⟩) (.of main_call0_v10 : StableHlo.TRef sig ⟨S2097152x1, .i1⟩) (cmpi .sle),
    StableHlo.TRef.binary (.of main_call0_v7 : StableHlo.TRef sig ⟨S2097152x1, .i1⟩) (.of main_call0_v10 : StableHlo.TRef sig ⟨S2097152x1, .i1⟩) (.of main_call0_v11 : StableHlo.TRef sig ⟨S2097152x1, .i1⟩) andi,
    StableHlo.TRef.nullary (.of main_call0_c_3 : StableHlo.TRef sig ⟨S_, .i1⟩) (constantI S_ 1 1#1),
    StableHlo.TRef.binary (.of main_call0_v11 : StableHlo.TRef sig ⟨S2097152x1, .i1⟩) (.of main_call0_c_3 : StableHlo.TRef sig ⟨S_, .i1⟩) (.of main_call0_v12 : StableHlo.TRef sig ⟨S2097152, .i1⟩) (fun x v => Host.reduce IntOp.andi x v reducesTo_S2097152x1_S2097152_d1 h_S_) ]
/-- Its last five lines: the gather, the NaN splat and the select. -/
abbrev opsPick : List (HloOp τ sig (Elt F)) :=
  [ StableHlo.TRef.binary (.of main_arg2 : StableHlo.TRef sig ⟨S32768x16, .f32⟩) (.of main_call0_v5 : StableHlo.TRef sig ⟨S2097152x1, .i32⟩) (.of main_call0_v13 : StableHlo.TRef sig ⟨S2097152x16, .f32⟩) (fun x i => Host.gather gather_S32768x16_S2097152x1_S2097152x16_1_0_n_n_0_1_116 x i),
    StableHlo.TRef.unary (.of main_call0_v12 : StableHlo.TRef sig ⟨S2097152, .i1⟩) (.of main_call0_v14 : StableHlo.TRef sig ⟨S2097152x16, .i1⟩) (broadcastInDim S2097152x16 ![0] bcast_S2097152_S2097152x16_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S2097152x16, .f32⟩) (broadcastInDim S2097152x16 ![] bcast_S_S2097152x16),
    StableHlo.TRef.ternary (.of main_call0_v14 : StableHlo.TRef sig ⟨S2097152x16, .i1⟩) (.of main_call0_v13 : StableHlo.TRef sig ⟨S2097152x16, .f32⟩) (.of main_call0_v15 : StableHlo.TRef sig ⟨S2097152x16, .f32⟩) (.of main_v19 : StableHlo.TRef sig ⟨S2097152x16, .f32⟩) select ]

/-- The stretch is the three parts in order. -/
theorem ops_split : (hostOps0_1 : List (HloOp τ sig (Elt F))) = opsIdx ++ (opsTest ++ opsPick) := rfl

section Parts
variable (W : Valuation τ sig (Elt F))

theorem idx_part : StableHlo.after opsIdx W (Proc.devRef .tc main_call0_v5) = wrapIdx (W (Proc.devRef .tc main_v18)) := by
  after_results_simp
  rfl
theorem idx_keep : StableHlo.after opsIdx W (Proc.devRef .tc main_arg2) = W (Proc.devRef .tc main_arg2) := by
  after_results_simp
attribute [local irreducible] Host.reduce in
theorem test_part : StableHlo.after opsTest W (Proc.devRef .tc main_call0_v12) = inBounds (W (Proc.devRef .tc main_call0_v5)) := by
  after_results_simp
  rfl
theorem test_keep_idx : StableHlo.after opsTest W (Proc.devRef .tc main_call0_v5) = W (Proc.devRef .tc main_call0_v5) := by
  after_results_simp
theorem test_keep_table : StableHlo.after opsTest W (Proc.devRef .tc main_arg2) = W (Proc.devRef .tc main_arg2) := by
  after_results_simp
theorem pick_part : StableHlo.after opsPick W (Proc.devRef .tc main_v19)
    = select (broadcastInDim S2097152x16 ![0] bcast_S2097152_S2097152x16_0 (W (Proc.devRef .tc main_call0_v12)))
        (Host.gather gather_S32768x16_S2097152x1_S2097152x16_1_0_n_n_0_1_116 (W (Proc.devRef .tc main_arg2)) (W (Proc.devRef .tc main_call0_v5)))
        (broadcastInDim S2097152x16 ![] bcast_S_S2097152x16 (constant S_ .f32 0x7FC00000#32)) := by
  after_results_simp
  rfl

end Parts

/-! ## The two stretches, read -/

/-- After the hashing stretch the index buffer holds the reference's index array of the positions. -/
theorem hash_eq (c : Dev nD) :
    afterHash m c (Proc.devRef .tc main_v18) = Cert.ReferenceIdeal.ReadP.val_main_v18 (F := F) (m ((c : Thread nD τ).loc main_arg0)) := by
  unfold afterHash
  after_results_simp
  rfl

/-- The table is as launched after the hashing stretch. -/
theorem table_eq (c : Dev nD) :
    afterHash m c (Proc.devRef .tc main_arg2) = m ((c : Thread nD τ).loc main_arg2) := by
  unfold afterHash
  after_results_simp

/-- After the lookup stretch the row buffer holds the checked lookup of the table at the wrapped index. -/
theorem take_raw (c : Dev nD) :
    afterTake m c (Proc.devRef .tc main_v19)
      = checkedTake (afterHash m c (Proc.devRef .tc main_arg2)) (wrapIdx (afterHash m c (Proc.devRef .tc main_v18))) := by
  unfold afterTake
  rw [ops_split, StableHlo.after_append, StableHlo.after_append, pick_part, test_part, test_keep_idx, test_keep_table, idx_part, idx_keep]
  rfl

/-- The wrapped index column of the reference's index array is the reference's own. -/
theorem wrap_ref (x0 : (⟨S2097152x3, .f32⟩ : BufTy).Contents (Elt F)) :
    wrapIdx (Cert.ReferenceIdeal.ReadP.val_main_v18 (F := F) x0) = Cert.ReferenceIdeal.ReadP.val_main_v24 (F := F) x0 := rfl

/-! ## The test always passes -/

/-- An entry of the reference's index column is a word masked to 15 bits. -/
theorem ref_idx_apply (x0 : (⟨S2097152x3, .f32⟩ : BufTy).Contents (Elt F)) (i : S2097152x1.Idx) :
    Cert.ReferenceIdeal.ReadP.val_main_v24 (F := F) x0 i
      = IntOp.andi (Cert.ReferenceIdeal.ReadP.val_main_v16 (F := F) x0 (Cert.ReferenceIdeal.ReadP.idx_main_v24 i)) 32767#32 := by
  rw [Cert.ReferenceIdeal.ReadP.val_main_v24_apply, Cert.ReferenceIdeal.ReadP.val_main_v23_apply,
    Cert.ReferenceIdeal.ReadP.val_main_v20_apply, Cert.ReferenceIdeal.ReadP.val_main_v19_apply,
    Cert.ReferenceIdeal.ReadP.val_main_c_3_apply, Cert.ReferenceIdeal.ReadP.val_main_v18_apply,
    Cert.ReferenceIdeal.ReadP.val_main_v17_apply, Cert.ReferenceIdeal.ReadP.val_main_c_2_apply,
    Cert.LibMaskedIndex.andi_not_slt_zero _ _ (by decide), select_zero]

/-- The in-bounds test passes at every point of the reference's index column. -/
theorem inBounds_ref (x0 : (⟨S2097152x3, .f32⟩ : BufTy).Contents (Elt F)) (j : S2097152.Idx) :
    inBounds (Cert.ReferenceIdeal.ReadP.val_main_v24 (F := F) x0) j = 1#1 := by
  unfold inBounds
  refine Cert.LibMaskedIndex.reduce_andi_ones _ _ reducesTo_S2097152x1_S2097152_d1 (by decide) h_S_ (fun i => ?_) (fun _ => rfl) j
  show IntOp.andi (IntOp.cmpi .sge (Cert.ReferenceIdeal.ReadP.val_main_v24 (F := F) x0 i) 0#32)
      (IntOp.cmpi .sle (Cert.ReferenceIdeal.ReadP.val_main_v24 (F := F) x0 i) 32767#32) = 1#1
  rw [ref_idx_apply, Cert.LibMaskedIndex.andi_sge_zero _ _ (by decide), Cert.LibMaskedIndex.andi_sle_mask _ _ (by decide)]
  rfl

/-- So the checked lookup at the reference's index column is the plain gather. -/
theorem checked_eq (emb : FVec F S32768x16 .f32) (x0 : (⟨S2097152x3, .f32⟩ : BufTy).Contents (Elt F)) :
    checkedTake emb (Cert.ReferenceIdeal.ReadP.val_main_v24 (F := F) x0)
      = Host.gather gather_S32768x16_S2097152x1_S2097152x16_1_0_n_n_0_1_116 emb (Cert.ReferenceIdeal.ReadP.val_main_v24 (F := F) x0) := by
  unfold checkedTake
  refine funext fun (i : S2097152x16.Idx) => ?_
  rw [select_apply]
  have hm : broadcastInDim S2097152x16 ![0] bcast_S2097152_S2097152x16_0 (inBounds (Cert.ReferenceIdeal.ReadP.val_main_v24 (F := F) x0)) i = 1#1 :=
    (broadcastInDim_apply _ bcast_S2097152_S2097152x16_0 _ i (fun a => match a with | ⟨0, _⟩ => ⟨(i 0).val, (i 0).isLt⟩) (fun a => match a with
      | ⟨0, _⟩ => by show (i 0).val = if (2097152 : Nat) = 1 then 0 else (i 0).val; rw [if_neg (by decide)])).trans (inBounds_ref x0 _)
  rw [hm, select_one]

/-! ## The feature arrays agree -/

/-- THE FEATURE ARRAY the kernel program builds is the reference's, as functions of positions, normals and table. -/
theorem feat_ref (c : Dev nD) :
    V m c main_v20 = Cert.ReferenceIdeal.ReadP.val_main_v26 (F := F) (m ((c : Thread nD τ).loc main_arg0))
      (m ((c : Thread nD τ).loc main_arg1)) (m ((c : Thread nD τ).loc main_arg2)) := by
  rw [feat_eq, keep_normal, take_raw, table_eq, hash_eq, wrap_ref, checked_eq]
  rfl

end Cert.KernelIdeal.Take

end
-- ==== Proof.KernelRun.lean ====
/-
  The kernel program's run, with its result named.

  Every weakly fair execution terminates; the result buffer ends at the row-major network `Mlp.rows` of the feature
  array — written as the reference's function of positions, normals and table, which the kernel program's own host
  lines compute too — and of the weights and biases as launched; the nine argument arrays end unchanged.
-/
import proofs.«406248_j8211977470216_3_alg».proof.Proof.KernelTake

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array as a function of the nine argument arrays on core `c`. -/
def result (c : Dev nD) : S2097152x3.Idx → EReal :=
  Mlp.rows (Cert.ReferenceIdeal.ReadP.val_main_v26 (F := Ideal) (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The run: the result buffer at `result`, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(Host.result_eq m r h c).trans (by rw [Take.feat_ref]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RunValue

end
-- ==== Proof.lean ====
/-
  A hashed-embedding lookup followed by a three-layer perceptron (19 → 64 → 64 → 3, rectifier, rectifier, logistic)
  over 2 097 152 points: the Pallas program against its jnp reference, on the extended reals.

  Both programs hash a point's position to a row of a 32768-row table (the low 15 bits of a 32-bit word), gather
  that row and join it with the point's normal into a 19-channel feature vector.  The reference then applies the
  network row by row, `x @ W + b`.  The Pallas program transposes everything once, runs the network channel-major in a
  64-point grid — each grid point takes 32768 lanes of the `[19, N]` feature array and writes the same lanes of the
  `[3, N]` result — and transposes the result back.

  Why the two agree.  (1) The kernel program's lookup is the checked kind (out-of-range indices would read NaN), the
  reference's the plain gather; a word masked to 15 bits is always in range, so the two feature arrays are one
  (`Take.feat_ref`).  (2) A `tpu.matmul` into a zero accumulator and a `dot_general` are the same finite sums of
  products with the factors in the other order, and the product of extended reals commutes; a column bias
  broadcast along lanes and a row bias broadcast along points read the same entry; the rectifier is `max · 0` on
  both sides; `tpu.logistic` is `1 / (1 + exp (-z))` by definition (`Body.pay_apply`, `RefValue.result_eq`).
  (3) The 64 blocks tile the result and the re-laying before and after the region only renames indices
  (`Blocks.final`, `Host.result_eq`, `Mlp.cols_eq_rows`).  No step needs the inputs finite.

  The ideal pass rewrote nothing, so the idealization claim is trivial; the three frames are the generated frame
  certificates and the reference's run.
-/
import proofs.«406248_j8211977470216_3_alg».proof.Defs
import proofs.«406248_j8211977470216_3_alg».proof.Proof.Gen.Kernel
import proofs.«406248_j8211977470216_3_alg».proof.Proof.Gen.Kernel.Skeleton
import proofs.«406248_j8211977470216_3_alg».proof.Proof.Gen.Kernel.Launch
import proofs.«406248_j8211977470216_3_alg».proof.Proof.Gen.Kernel.Points
import proofs.«406248_j8211977470216_3_alg».proof.Proof.Gen.Kernel.Frame
import proofs.«406248_j8211977470216_3_alg».proof.Proof.Gen.KernelIdeal
import proofs.«406248_j8211977470216_3_alg».proof.Proof.Gen.KernelIdeal.Skeleton
import proofs.«406248_j8211977470216_3_alg».proof.Proof.Gen.KernelIdeal.Launch
import proofs.«406248_j8211977470216_3_alg».proof.Proof.Gen.KernelIdeal.Points
import proofs.«406248_j8211977470216_3_alg».proof.Proof.Gen.KernelIdeal.Frame
import proofs.«406248_j8211977470216_3_alg».proof.Proof.Gen.ReferenceIdeal
import proofs.«406248_j8211977470216_3_alg».proof.Proof.Gen.Pre_finite_inputs
import proofs.«406248_j8211977470216_3_alg».proof.Proof.RefRun
import proofs.«406248_j8211977470216_3_alg».proof.Proof.RefRead
import proofs.«406248_j8211977470216_3_alg».proof.Proof.RefValue
import proofs.«406248_j8211977470216_3_alg».proof.Proof.KernelRun
import Idealize.ShloMosaic.Adequacy
import Idealize.ShloMosaic.Init

noncomputable section

namespace Cert.Proof

open Idealize.ShloMosaic Idealize.ShloMosaic.TcCoe Idealize.SL.Sem

/-- The word-level program runs and keeps its arguments: its generated frame. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the nine arguments both programs end with the network's value `RunValue.result`: the
    kernel program by its run, the reference by its run read as `Mlp.rows` of its own feature array. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun r h c => ⟨?_, (h c).2⟩) (Cert.ReferenceIdeal.ValueP.run (F := Ideal) m' ρ')
  rw [(h c).1, Cert.ReferenceIdeal.ReadP.val_main_v46_eq, Cert.ReferenceIdeal.RefValue.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
